-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S45088768 : Shape := ⟨1, ![45088768]⟩
abbrev S704512 : Shape := ⟨1, ![704512]⟩
abbrev S16 : Shape := ⟨1, ![16]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S704512 : S_.BroadcastsInDim S704512 (![] : Fin 0 → Fin S704512.rank)
  reducesTo_S704512_S_d0 : S704512.ReducesTo [0] S_
  bcast_S_S16 : S_.BroadcastsInDim S16 (![] : Fin 0 → Fin S16.rank)
  reducesTo_S16_S_d0 : S16.ReducesTo [0] S_
  bcast_S_S11008 : S_.BroadcastsInDim S11008 (![] : Fin 0 → Fin S11008.rank)
  reducesTo_S11008_S_d0 : S11008.ReducesTo [0] S_
  bcast_S_S45088768 : S_.BroadcastsInDim S45088768 (![] : Fin 0 → Fin S45088768.rank)
  reducesTo_S45088768_S_d0 : S45088768.ReducesTo [0] S_

variable [Facts]

def fn_part1 {F : FTy → Type} [FloatOps F] (main_arg1 : IVec S45088768 32) (main_v13 : IVec S_ 1) (main_v16 : IVec S11008 1) : IVec S_ 1 :=
  let main_c_5 : IVec S_ 1 := constantI S_ 1 1#1
  let main_v17 : IVec S_ 1 := (fun x v => Host.reduce IntOp.andi x v reducesTo_S11008_S_d0 h_S_) main_v16 main_c_5
  let main_v18 : IVec S_ 1 := andi main_v13 main_v17
  let main_c_6 : IVec S_ 32 := constantI S_ 32 4294967280#32
  let main_v19 : IVec S45088768 32 := broadcastInDim S45088768 ![] bcast_S_S45088768 main_c_6
  let main_v20 : IVec S45088768 1 := cmpi .sge main_arg1 main_v19
  let main_c_7 : IVec S_ 1 := constantI S_ 1 1#1
  let main_v21 : IVec S_ 1 := (fun x v => Host.reduce IntOp.andi x v reducesTo_S45088768_S_d0 h_S_) main_v20 main_c_7
  let main_v22 : IVec S_ 1 := andi main_v18 main_v21
  let main_c_8 : IVec S_ 32 := constantI S_ 32 16#32
  let main_v23 : IVec S45088768 32 := broadcastInDim S45088768 ![] bcast_S_S45088768 main_c_8
  let main_v24 : IVec S45088768 1 := cmpi .slt main_arg1 main_v23
  let main_c_9 : IVec S_ 1 := constantI S_ 1 1#1
  let main_v25 : IVec S_ 1 := (fun x v => Host.reduce IntOp.andi x v reducesTo_S45088768_S_d0 h_S_) main_v24 main_c_9
  let main_v26 : IVec S_ 1 := andi main_v22 main_v25
  main_v26

def fn {F : FTy → Type} [FloatOps F] (main_arg0 : FVec F S8192x4096 .f32) (main_arg1 : IVec S45088768 32) (main_arg2 : FVec F S704512 .f32) (main_arg3 : FVec F S16 .f32) (main_arg4 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S704512 .f32 := Host.absf main_arg2
  let main_cst_0 : FVec F S_ .f32 := constant S_ .f32 0x7F800000#32
  let main_v5 : FVec F S704512 .f32 := broadcastInDim S704512 ![] bcast_S_S704512 main_cst_0
  let main_v6 : IVec S704512 1 := cmpf .olt main_v4 main_v5
  let main_c_1 : IVec S_ 1 := constantI S_ 1 1#1
  let main_v7 : IVec S_ 1 := (fun x v => Host.reduce IntOp.andi x v reducesTo_S704512_S_d0 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S11008 .f32 := Host.absf main_arg4
  let main_cst_4 : FVec F S_ .f32 := constant S_ .f32 0x7F800000#32
  let main_v15 : FVec F S11008 .f32 := broadcastInDim S11008 ![] bcast_S_S11008 main_cst_4
  let main_v16 : IVec S11008 1 := cmpf .olt main_v14 main_v15
  fn_part1 (F := F) main_arg1 main_v13 main_v16
-- ==== Kernel.lean ====
abbrev S8192x4096 : Shape := ⟨2, ![8192, 4096]⟩
abbrev S45088768 : Shape := ⟨1, ![45088768]⟩
abbrev S704512 : Shape := ⟨1, ![704512]⟩
abbrev S16 : Shape := ⟨1, ![16]⟩
abbrev S11008 : Shape := ⟨1, ![11008]⟩
abbrev S11008x4096 : Shape := ⟨2, ![11008, 4096]⟩
abbrev S11008x64 : Shape := ⟨2, ![11008, 64]⟩
abbrev S1x16 : Shape := ⟨2, ![1, 16]⟩
abbrev S1x11008 : Shape := ⟨2, ![1, 11008]⟩
abbrev S64x64 : Shape := ⟨2, ![64, 64]⟩
abbrev S_ : Shape := ⟨0, ![]⟩
abbrev S64x64x64 : Shape := ⟨3, ![64, 64, 64]⟩
abbrev S64x4096 : Shape := ⟨2, ![64, 4096]⟩
abbrev S128x4096 : Shape := ⟨2, ![128, 4096]⟩
abbrev S128x64 : Shape := ⟨2, ![128, 64]⟩
abbrev S128x512 : Shape := ⟨2, ![128, 512]⟩
abbrev S1x1 : Shape := ⟨2, ![1, 1]⟩
abbrev S8192x11008 : Shape := ⟨2, ![8192, 11008]⟩
abbrev S1024x4096 : Shape := ⟨2, ![1024, 4096]⟩
abbrev S256x4096 : Shape := ⟨2, ![256, 4096]⟩
abbrev S1x256 : Shape := ⟨2, ![1, 256]⟩
abbrev S1024x256 : Shape := ⟨2, ![1024, 256]⟩

abbrev nBuf : Space → Nat
  | .hbm => 21
  | .vmem => 16
  | .smem => 0
  | _ => 0

abbrev bufTy : (tb : Table) → Fin (tcTables nBuf tb) → BufTy
  | .hbm, ⟨0, _⟩ => ⟨S8192x4096, .f32⟩
  | .hbm, ⟨1, _⟩ => ⟨S45088768, .i32⟩
  | .hbm, ⟨2, _⟩ => ⟨S704512, .f32⟩
  | .hbm, ⟨3, _⟩ => ⟨S16, .f32⟩
  | .hbm, ⟨4, _⟩ => ⟨S11008, .f32⟩
  | .hbm, ⟨5, _⟩ => ⟨S11008x4096, .i32⟩
  | .hbm, ⟨6, _⟩ => ⟨S11008x64, .f32⟩
  | .hbm, ⟨7, _⟩ => ⟨S1x16, .f32⟩
  | .hbm, ⟨8, _⟩ => ⟨S1x11008, .f32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S64x64, .i1⟩
  | .hbm, ⟨15, _⟩ => ⟨S64x64, .f32⟩
  | .hbm, ⟨16, _⟩ => ⟨S64x64x64, .f32⟩
  | .hbm, ⟨17, _⟩ => ⟨S64x4096, .f32⟩
  | .hbm, ⟨18, _⟩ => ⟨S11008x4096, .bf16⟩
  | .hbm, ⟨19, _⟩ => ⟨S8192x4096, .bf16⟩
  | .hbm, ⟨20, _⟩ => ⟨S8192x11008, .f32⟩
  | .local _ .vmem, ⟨0, _⟩ => ⟨S128x4096, .i32⟩
  | .local _ .vmem, ⟨1, _⟩ => ⟨S128x4096, .i32⟩
  | .local _ .vmem, ⟨2, _⟩ => ⟨S128x64, .f32⟩
  | .local _ .vmem, ⟨3, _⟩ => ⟨S128x64, .f32⟩
  | .local _ .vmem, ⟨4, _⟩ => ⟨S1x16, .f32⟩
  | .local _ .vmem, ⟨5, _⟩ => ⟨S64x4096, .f32⟩
  | .local _ .vmem, ⟨6, _⟩ => ⟨S128x4096, .bf16⟩
  | .local _ .vmem, ⟨7, _⟩ => ⟨S128x4096, .bf16⟩
  | .local _ .vmem, ⟨8, _⟩ => ⟨S1024x4096, .bf16⟩
  | .local _ .vmem, ⟨9, _⟩ => ⟨S1024x4096, .bf16⟩
  | .local _ .vmem, ⟨10, _⟩ => ⟨S256x4096, .bf16⟩
  | .local _ .vmem, ⟨11, _⟩ => ⟨S256x4096, .bf16⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S45088768_S11008x4096 : S45088768.ShapeCasts S11008x4096
  shapeCasts_S704512_S11008x64 : S704512.ShapeCasts S11008x64
  shapeCasts_S16_S1x16 : S16.ShapeCasts S1x16
  shapeCasts_S11008_S1x11008 : S11008.ShapeCasts S1x11008
  bcast_S_S64x64 : S_.BroadcastsInDim S64x64 (![] : Fin 0 → Fin S64x64.rank)
  bcast_S64x64_S64x64x64_0_1 : S64x64.BroadcastsInDim S64x64x64 (![0, 1] : Fin 2 → Fin S64x64x64.rank)
  shapeCasts_S64x64x64_S64x4096 : S64x64x64.ShapeCasts S64x4096
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S128x4096_S128x512_0_0 : ∀ a, (![0, 0] : Fin 2 → Nat) a + S128x512.size a ≤ S128x4096.size a
  h_S128x512 : 0 < S128x512.numel
  shapeCasts_S128x512_S128x512 : S128x512.ShapeCasts S128x512
  slices_S1x16_o0_1_S1x1 : S1x16.Slices ![0, 1] S1x1
  inpos_S1x1_p0_0 : ∀ a, (![0, 0] : Fin 2 → Nat) a < S1x1.size a
  slices_S1x16_o0_0_S1x1 : S1x16.Slices ![0, 0] S1x1
  slices_S1x16_o0_3_S1x1 : S1x16.Slices ![0, 3] S1x1
  slices_S1x16_o0_2_S1x1 : S1x16.Slices ![0, 2] S1x1
  slices_S1x16_o0_5_S1x1 : S1x16.Slices ![0, 5] S1x1
  slices_S1x16_o0_4_S1x1 : S1x16.Slices ![0, 4] S1x1
  slices_S1x16_o0_7_S1x1 : S1x16.Slices ![0, 7] S1x1
  slices_S1x16_o0_6_S1x1 : S1x16.Slices ![0, 6] S1x1
  slices_S1x16_o0_9_S1x1 : S1x16.Slices ![0, 9] S1x1
  slices_S1x16_o0_8_S1x1 : S1x16.Slices ![0, 8] S1x1
  slices_S1x16_o0_11_S1x1 : S1x16.Slices ![0, 11] S1x1
  slices_S1x16_o0_10_S1x1 : S1x16.Slices ![0, 10] S1x1
  slices_S1x16_o0_13_S1x1 : S1x16.Slices ![0, 13] S1x1
  slices_S1x16_o0_12_S1x1 : S1x16.Slices ![0, 12] S1x1
  slices_S1x16_o0_15_S1x1 : S1x16.Slices ![0, 15] S1x1
  slices_S1x16_o0_14_S1x1 : S1x16.Slices ![0, 14] S1x1
  slices_S128x4096_o0_0_S128x512 : S128x4096.Slices ![0, 0] S128x512
  bitsLt_bf16_f32 : FTy.bits .bf16 < FTy.bits .f32
  packedbf16_S128x4096_S128x512_0_0 : (Rect.unit (s := S128x4096) ![0, 0] S128x512.size inb_S128x4096_S128x512_0_0).PackedRows (EltTy.packing .bf16)
  inb_S128x4096_S128x512_0_512 : ∀ a, (![0, 512] : Fin 2 → Nat) a + S128x512.size a ≤ S128x4096.size a
  slices_S128x4096_o0_512_S128x512 : S128x4096.Slices ![0, 512] S128x512
  packedbf16_S128x4096_S128x512_0_512 : (Rect.unit (s := S128x4096) ![0, 512] S128x512.size inb_S128x4096_S128x512_0_512).PackedRows (EltTy.packing .bf16)
  inb_S128x4096_S128x512_0_1024 : ∀ a, (![0, 1024] : Fin 2 → Nat) a + S128x512.size a ≤ S128x4096.size a
  slices_S128x4096_o0_1024_S128x512 : S128x4096.Slices ![0, 1024] S128x512
  packedbf16_S128x4096_S128x512_0_1024 : (Rect.unit (s := S128x4096) ![0, 1024] S128x512.size inb_S128x4096_S128x512_0_1024).PackedRows (EltTy.packing .bf16)
  inb_S128x4096_S128x512_0_1536 : ∀ a, (![0, 1536] : Fin 2 → Nat) a + S128x512.size a ≤ S128x4096.size a
  slices_S128x4096_o0_1536_S128x512 : S128x4096.Slices ![0, 1536] S128x512
  packedbf16_S128x4096_S128x512_0_1536 : (Rect.unit (s := S128x4096) ![0, 1536] S128x512.size inb_S128x4096_S128x512_0_1536).PackedRows (EltTy.packing .bf16)
  inb_S128x4096_S128x512_0_2048 : ∀ a, (![0, 2048] : Fin 2 → Nat) a + S128x512.size a ≤ S128x4096.size a
  slices_S128x4096_o0_2048_S128x512 : S128x4096.Slices ![0, 2048] S128x512
  packedbf16_S128x4096_S128x512_0_2048 : (Rect.unit (s := S128x4096) ![0, 2048] S128x512.size inb_S128x4096_S128x512_0_2048).PackedRows (EltTy.packing .bf16)
  inb_S128x4096_S128x512_0_2560 : ∀ a, (![0, 2560] : Fin 2 → Nat) a + S128x512.size a ≤ S128x4096.size a
  slices_S128x4096_o0_2560_S128x512 : S128x4096.Slices ![0, 2560] S128x512
  packedbf16_S128x4096_S128x512_0_2560 : (Rect.unit (s := S128x4096) ![0, 2560] S128x512.size inb_S128x4096_S128x512_0_2560).PackedRows (EltTy.packing .bf16)
  inb_S128x4096_S128x512_0_3072 : ∀ a, (![0, 3072] : Fin 2 → Nat) a + S128x512.size a ≤ S128x4096.size a
  slices_S128x4096_o0_3072_S128x512 : S128x4096.Slices ![0, 3072] S128x512
  packedbf16_S128x4096_S128x512_0_3072 : (Rect.unit (s := S128x4096) ![0, 3072] S128x512.size inb_S128x4096_S128x512_0_3072).PackedRows (EltTy.packing .bf16)
  inb_S128x4096_S128x512_0_3584 : ∀ a, (![0, 3584] : Fin 2 → Nat) a + S128x512.size a ≤ S128x4096.size a
  slices_S128x4096_o0_3584_S128x512 : S128x4096.Slices ![0, 3584] S128x512
  packedbf16_S128x4096_S128x512_0_3584 : (Rect.unit (s := S128x4096) ![0, 3584] S128x512.size inb_S128x4096_S128x512_0_3584).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  dot_S128x64_S64x4096_S128x4096_1_0_0_1_n_n_wf : DotDims.WF S128x64 S64x4096 S128x4096 [1] [0] [0] [1] [] []
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S11008x4096.size a
  hwx0_0 : ∀ i : grid0.Coords, EltTy.bits .i32 = 32 ∨ (Rect.block (s := S11008x4096) S128x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S11008x64.size a
  hwx0_1 : ∀ i : grid0.Coords, EltTy.bits .f32 = 32 ∨ (Rect.block (s := S11008x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .f32 = 32 ∨ (Rect.block (s := S64x4096) S64x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S11008x4096.size a
  hwx0_4 : ∀ i : grid0.Coords, EltTy.bits .bf16 = 32 ∨ (Rect.block (s := S11008x4096) S128x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S11008x4096.size a
  hwx1_1 : ∀ i : grid1.Coords, EltTy.bits .bf16 = 32 ∨ (Rect.block (s := S11008x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x11008.size a
  hwx1_2 : ∀ i : grid1.Coords, EltTy.bits .f32 = 32 ∨ (Rect.block (s := S1x11008) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S8192x11008.size a
  hwx1_3 : ∀ i : grid1.Coords, EltTy.bits .f32 = 32 ∨ (Rect.block (s := S8192x11008) S1024x256.size (cc1_transform_3 i) (hinb1_3 i)).WholeWords (EltTy.packing .f32)

variable [Facts₀]

def dot_S128x64_S64x4096_S128x4096_1_0_0_1_n_n : DotDims S128x64 S64x4096 S128x4096 where
  lhsContracting := [1]
  rhsContracting := [0]
  lhsNonContracting := [0]
  rhsNonContracting := [1]
  lhsBatch := []
  rhsBatch := []
  wf := dot_S128x64_S64x4096_S128x4096_1_0_0_1_n_n_wf
def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S45088768 : Shape := ⟨1, ![45088768]⟩
abbrev S704512 : Shape := ⟨1, ![704512]⟩
abbrev S16 : Shape := ⟨1, ![16]⟩
abbrev S11008 : Shape := ⟨1, ![11008]⟩
abbrev S_ : Shape := ⟨0, ![]⟩
abbrev S45088768x1 : Shape := ⟨2, ![45088768, 1]⟩
abbrev S704512x64 : Shape := ⟨2, ![704512, 64]⟩
abbrev S704512x1 : Shape := ⟨2, ![704512, 1]⟩
abbrev S11008x4096 : Shape := ⟨2, ![11008, 4096]⟩
abbrev S8192x11008 : Shape := ⟨2, ![8192, 11008]⟩
abbrev S1x11008 : Shape := ⟨2, ![1, 11008]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S45088768, .i32⟩
  | .hbm, ⟨2, _⟩ => ⟨S704512, .f32⟩
  | .hbm, ⟨3, _⟩ => ⟨S16, .f32⟩
  | .hbm, ⟨4, _⟩ => ⟨S11008, .f32⟩
  | .hbm, ⟨5, _⟩ => ⟨S_, .i32⟩
  | .hbm, ⟨6, _⟩ => ⟨S45088768, .i32⟩
  | .hbm, ⟨7, _⟩ => ⟨S45088768, .i1⟩
  | .hbm, ⟨8, _⟩ => ⟨S_, .i32⟩
  | .hbm, ⟨9, _⟩ => ⟨S45088768, .i32⟩
  | .hbm, ⟨10, _⟩ => ⟨S45088768, .i32⟩
  | .hbm, ⟨11, _⟩ => ⟨S45088768, .i32⟩
  | .hbm, ⟨12, _⟩ => ⟨S45088768x1, .i32⟩
  | .hbm, ⟨13, _⟩ => ⟨S45088768, .f32⟩
  | .hbm, ⟨14, _⟩ => ⟨S704512x64, .f32⟩
  | .hbm, ⟨15, _⟩ => ⟨S704512x1, .f32⟩
  | .hbm, ⟨16, _⟩ => ⟨S704512x64, .f32⟩
  | .hbm, ⟨17, _⟩ => ⟨S704512x64, .f32⟩
  | .hbm, ⟨18, _⟩ => ⟨S11008x4096, .f32⟩
  | .hbm, ⟨19, _⟩ => ⟨S8192x11008, .f32⟩
  | .hbm, ⟨20, _⟩ => ⟨S1x11008, .f32⟩
  | .hbm, ⟨21, _⟩ => ⟨S8192x11008, .f32⟩
  | .hbm, ⟨22, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S45088768 : S_.BroadcastsInDim S45088768 (![] : Fin 0 → Fin S45088768.rank)
  bcast_S45088768_S45088768x1_0 : S45088768.BroadcastsInDim S45088768x1 (![0] : Fin 1 → Fin S45088768x1.rank)
  shapeCasts_S45088768_S704512x64 : S45088768.ShapeCasts S704512x64
  bcast_S704512_S704512x1_0 : S704512.BroadcastsInDim S704512x1 (![0] : Fin 1 → Fin S704512x1.rank)
  bcast_S704512x1_S704512x64_0_1 : S704512x1.BroadcastsInDim S704512x64 (![0, 1] : Fin 2 → Fin S704512x64.rank)
  shapeCasts_S704512x64_S11008x4096 : S704512x64.ShapeCasts S11008x4096
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  gather_S16_S45088768x1_S45088768_n_0_n_n_0_1_1_wf : GatherDims.WF S16 S45088768x1 S45088768 [] [0] [] [0] [] 1 ![1]
  dot_S8192x4096_S11008x4096_S8192x11008_1_1_0_0_n_n_wf : DotDims.WF S8192x4096 S11008x4096 S8192x11008 [1] [1] [0] [0] [] []

variable [Facts₀]

def gather_S16_S45088768x1_S45088768_n_0_n_n_0_1_1 : GatherDims S16 S45088768x1 S45088768 where
  offsetDims := []
  collapsedSliceDims := [0]
  operandBatchingDims := []
  startIndicesBatchingDims := []
  startIndexMap := [0]
  indexVectorDim := 1
  sliceSizes := ![1]
  wf := gather_S16_S45088768x1_S45088768_n_0_n_n_0_1_1_wf
def dot_S8192x4096_S11008x4096_S8192x11008_1_1_0_0_n_n : DotDims S8192x4096 S11008x4096 S8192x11008 where
  lhsContracting := [1]
  rhsContracting := [1]
  lhsNonContracting := [0]
  rhsNonContracting := [0]
  lhsBatch := []
  rhsBatch := []
  wf := dot_S8192x4096_S11008x4096_S8192x11008_1_1_0_0_n_n_wf

class Facts : Prop extends Facts₀ where

variable [Facts]
-- ==== Proof.Spec.lean ====
/-
  The mathematics both programs compute, as plain functions of the five argument arrays.

  A code word selects one of sixteen table entries by its low four bits; the weight in row o, column i is that
  entry for code number o·4096 + i, times the scale of the block of sixty-four consecutive codes it lies in
  (block number o·64 + i/64). The result in row t, column o is the inner product of row t of the input with
  row o of the weights, plus the bias of column o. Everything is read on the extended reals, where a change
  of float format is the identity.
-/
import Idealize.ShloMosaic.PureOps.Ideal
import Idealize.ShloMosaic.Lib.ValueIdx

noncomputable section

open scoped BigOperators

namespace Cert.Nf4

open Idealize.ShloMosaic Idealize.ShloMosaic.ValueIdx

/-- The low four bits of a code word, as a position in the sixteen-entry table. -/
def nib (c : BitVec 32) : Fin 16 :=
  ⟨(c &&& 15#32).toNat, by
    have h := Nat.and_le_right (n := c.toNat) (m := 15)
    rw [BitVec.toNat_and]
    exact Nat.lt_of_le_of_lt h (by decide)⟩

/-- The weight in row `o`, column `i`: the table entry the code selects, times its block's scale. -/
def wgt (codes : IVec ⟨1, ![45088768]⟩ 32) (absmax : FVec Ideal ⟨1, ![704512]⟩ .f32) (cb : FVec Ideal ⟨1, ![16]⟩ .f32)
    (o : Fin 11008) (i : Fin 4096) : EReal :=
  cb (ix1 (nib (codes (ix1 (⟨o.val * 4096 + i.val, by omega⟩ : Fin 45088768)))))
    * absmax (ix1 (⟨o.val * 64 + i.val / 64, by omega⟩ : Fin 704512))

/-- The whole weight matrix. -/
def W (codes : IVec ⟨1, ![45088768]⟩ 32) (absmax : FVec Ideal ⟨1, ![704512]⟩ .f32) (cb : FVec Ideal ⟨1, ![16]⟩ .f32) :
    (⟨2, ![11008, 4096]⟩ : Shape).Idx → EReal :=
  fun j => wgt codes absmax cb (j 0) (j 1)

/-- The result in row `t`, column `o`. -/
def yAt (x : FVec Ideal ⟨2, ![8192, 4096]⟩ .f32) (codes : IVec ⟨1, ![45088768]⟩ 32) (absmax : FVec Ideal ⟨1, ![704512]⟩ .f32)
    (cb : FVec Ideal ⟨1, ![16]⟩ .f32) (bias : FVec Ideal ⟨1, ![11008]⟩ .f32) (t : Fin 8192) (o : Fin 11008) : EReal :=
  (∑ k : Fin 4096, x (ix2 t k) * wgt codes absmax cb o k) + bias (ix1 o)

/-- The whole result. -/
def Y (x : FVec Ideal ⟨2, ![8192, 4096]⟩ .f32) (codes : IVec ⟨1, ![45088768]⟩ 32) (absmax : FVec Ideal ⟨1, ![704512]⟩ .f32)
    (cb : FVec Ideal ⟨1, ![16]⟩ .f32) (bias : FVec Ideal ⟨1, ![11008]⟩ .f32) :
    (⟨2, ![8192, 11008]⟩ : Shape).Idx → EReal :=
  fun j => yAt x codes absmax cb bias (j 0) (j 1)

end Cert.Nf4

end
-- ==== Proof.Arrays.lean ====
/-
  The arrays the two kernels read, named at their literal types: the code matrix, the scale matrix, the table row,
  the zero-one spreading matrix, and for the product the input, the weights and the bias row — each as the
  TensorCore finds it when the kernel is entered.
-/
import proofs.«408254_j44564580663461_3_alg».proof.Proof.Spec
import proofs.«408254_j44564580663461_3_alg».proof.Proof.Gen.KernelIdeal.Frame

noncomputable section

namespace Cert.KernelIdeal.Gen

open Idealize.ShloMosaic Idealize.ShloMosaic.TcCoe Idealize.SL.Sem

variable (V : (c : Dev nD) → (b : Ref sig .tc) → Buf (Elt Ideal) ((c : Thread nD τ).loc b))

/-- The codes as an 11008 × 4096 matrix. -/
abbrev codesA (c : Dev nD) : IVec S11008x4096 32 := V c main_v0
/-- The scales as an 11008 × 64 matrix: one per row and block of sixty-four columns. -/
abbrev scalesA (c : Dev nD) : FVec Ideal S11008x64 .f32 := V c main_v1
/-- The sixteen table entries as a row. -/
abbrev tableA (c : Dev nD) : FVec Ideal S1x16 .f32 := V c main_v2
/-- The 64 × 4096 matrix that spreads a block's scale over its sixty-four columns. -/
abbrev spreadA (c : Dev nD) : FVec Ideal S64x4096 .f32 := V c main_v11
/-- The input of the product. -/
abbrev inputA (c : Dev nD) : FVec Ideal S8192x4096 .bf16 := V c main_v13
/-- The weight matrix the first kernel leaves. -/
abbrev weightA (c : Dev nD) : FVec Ideal S11008x4096 .bf16 := V c main_v12
/-- The bias as a row. -/
abbrev biasA (c : Dev nD) : FVec Ideal S1x11008 .f32 := V c main_v3

end Cert.KernelIdeal.Gen

end
-- ==== Proof.HostReads.lean ====
/-
  The arrays the two kernels find, read back to the launch arrays.

  Before the first kernel the host reshapes the codes to 11008 × 4096, the scales to 11008 × 64, the table to a row,
  and builds the spreading matrix: the 64 × 64 identity with each column repeated sixty-four times, so its entry
  (k, i) is one when column i lies in block k (k = i / 64) and zero otherwise. Between the kernels the host only
  changes the input's float format, which is the identity on the extended reals; the second kernel reads that, the
  weight matrix the first kernel left, and the bias reshaped to a row.
-/
import proofs.«408254_j44564580663461_3_alg».proof.Proof.Arrays
import Idealize.ShloMosaic.Lib.StableHlo.Run
import Idealize.ShloMosaic.Lib.Pipeline.Value
import Idealize.ShloMosaic.Lib.IdealHost

set_option maxRecDepth 16384

noncomputable section

open scoped BigOperators

namespace Cert.KernelIdeal.Gen

open Idealize.ShloMosaic Idealize.ShloMosaic.TcCoe Idealize.ShloMosaic.ValueIdx Idealize.SL.Sem Cert.Nf4
open Idealize.ShloMosaic.StableHlo

variable (m : (ℓ : Loc nD τ sig) → Buf (Elt Ideal) ℓ) (ρ : Dev nD → PrngReg)

/-- The five argument arrays as launched, at their literal types. -/
abbrev xM (c : Dev nD) : FVec Ideal S8192x4096 .f32 := m ((c : Thread nD τ).loc main_arg0)
abbrev codesM (c : Dev nD) : IVec S45088768 32 := m ((c : Thread nD τ).loc main_arg1)
abbrev absmaxM (c : Dev nD) : FVec Ideal S704512 .f32 := m ((c : Thread nD τ).loc main_arg2)
abbrev tableM (c : Dev nD) : FVec Ideal S16 .f32 := m ((c : Thread nD τ).loc main_arg3)
abbrev biasM (c : Dev nD) : FVec Ideal S11008 .f32 := m ((c : Thread nD τ).loc main_arg4)

/-- The code matrix is the code vector, row-major. -/
theorem codes_read (c : Dev nD) (o : Fin 11008) (i : Fin 4096) :
    codesA (V1 m ρ) c (ix2 o i) = codesM m c (ix1 (⟨o.val * 4096 + i.val, by omega⟩ : Fin 45088768)) := by
  have e : codesA (V1 m ρ) c = shapeCast S11008x4096 (codesM m c) shapeCasts_S45088768_S11008x4096 := by
    show StableHlo.after hostOps0 (W0 m ρ c) (Proc.devRef .tc main_v0) = _
    after_results
    rfl
  rw [e]
  exact shapeCast_apply _ _ _ _ (by rw [Shape.rowMajor_val_one, Shape.rowMajor_val_two]; rfl)

/-- The scale matrix is the scale vector, row-major: sixty-four blocks to a row. -/
theorem scales_read (c : Dev nD) (o : Fin 11008) (k : Fin 64) :
    scalesA (V1 m ρ) c (ix2 o k) = absmaxM m c (ix1 (⟨o.val * 64 + k.val, by omega⟩ : Fin 704512)) := by
  have e : scalesA (V1 m ρ) c = shapeCast S11008x64 (absmaxM m c) shapeCasts_S704512_S11008x64 := by
    show StableHlo.after hostOps0 (W0 m ρ c) (Proc.devRef .tc main_v1) = _
    after_results
    rfl
  rw [e]
  exact shapeCast_apply _ _ _ _ (by rw [Shape.rowMajor_val_one, Shape.rowMajor_val_two]; rfl)

/-- The table row is the table. -/
theorem table_read (c : Dev nD) (e : Fin 16) :
    tableA (V1 m ρ) c (ix2 (0 : Fin 1) e) = tableM m c (ix1 e) := by
  have h : tableA (V1 m ρ) c = shapeCast S1x16 (tableM m c) shapeCasts_S16_S1x16 := by
    show StableHlo.after hostOps0 (W0 m ρ c) (Proc.devRef .tc main_v2) = _
    after_results
    rfl
  rw [h]
  exact shapeCast_apply _ _ _ _ (by rw [Shape.rowMajor_val_one, Shape.rowMajor_val_two]; simp)

/-- The spreading matrix: one where the column lies in the row's block of sixty-four, zero elsewhere. -/
theorem spread_read (c : Dev nD) (k : Fin 64) (i : Fin 4096) :
    spreadA (V1 m ρ) c (ix2 k i) = if k.val = i.val / 64 then (1 : EReal) else 0 := by
  have e : spreadA (V1 m ρ) c = shapeCast S64x4096 (broadcastInDim S64x64x64 ![0, 1] bcast_S64x64_S64x64x64_0_1
            (uitofp (F := Ideal) FTy.f32
              (cmpi CmpIPredicate.eq
                (addi (iotaInDim S64x64 32 0) (broadcastInDim S64x64 ![] bcast_S_S64x64 (constantI S_ 32 0#32)))
                (iotaInDim S64x64 32 1)))) shapeCasts_S64x64x64_S64x4096 := by
    show StableHlo.after hostOps0 (W0 m ρ c) (Proc.devRef .tc main_v11) = _
    after_results
    rfl
  rw [e]
  -- entry (k, i) of the reshaped array is entry (k, i / 64, i % 64) of the three-axis one …
  refine (shapeCast_apply _ _ (ix2 k i) (ix3 k (⟨i.val / 64, by omega⟩ : Fin 64) (⟨i.val % 64, by omega⟩ : Fin 64)) ?_).trans ?_
  · rw [Shape.rowMajor_val_three, Shape.rowMajor_val_two]
    show (k.val * 64 + i.val / 64) * 64 + i.val % 64 = k.val * 4096 + i.val
    omega
  -- … which repeats entry (k, i / 64) of the identity along its last axis
  refine (broadcastInDim_apply _ _ _ _ (ix2 k (⟨i.val / 64, by omega⟩ : Fin 64)) (fun a => ?_)).trans ?_
  · match a with
    | ⟨0, _⟩ => show k.val = if (64 : Nat) = 1 then 0 else k.val; rw [if_neg (by decide)]
    | ⟨1, _⟩ => show i.val / 64 = if (64 : Nat) = 1 then 0 else i.val / 64; rw [if_neg (by decide)]
  show (((BitVec.ofBool (BitVec.ofNat 32 k.val + 0#32 == BitVec.ofNat 32 (i.val / 64))).toNat : ℝ) : EReal) = _
  have hk : k.val < 2 ^ 32 := lt_trans k.isLt (by decide)
  have hi : i.val / 64 < 2 ^ 32 := by have := i.isLt; omega
  by_cases h : k.val = i.val / 64
  · rw [if_pos h, h, BitVec.add_zero, beq_self_eq_true]
    simp
  · rw [if_neg h, BitVec.add_zero]
    have hne : (BitVec.ofNat 32 k.val == BitVec.ofNat 32 (i.val / 64)) = false := by
      rw [beq_eq_false_iff_ne]
      intro hh
      have h2 := congrArg BitVec.toNat hh
      rw [BitVec.toNat_ofNat, BitVec.toNat_ofNat, Nat.mod_eq_of_lt hk, Nat.mod_eq_of_lt hi] at h2
      exact h h2
    rw [hne]
    simp

/-- The second kernel's input is the launch input: the change of float format is the identity. -/
theorem input_read (c : Dev nD) : inputA (V3 m ρ) c = xM m c := by
  have h0 : W2 m ρ c (Proc.devRef .tc main_arg0) = m ((c : Thread nD τ).loc main_arg0) :=
    (W2_of_ne m ρ c main_arg0 (by decide)).trans (by
      show StableHlo.after hostOps0 (W0 m ρ c) (Proc.devRef .tc main_arg0) = _
      after_results)
  show StableHlo.after hostOps1 (W2 m ρ c) (Proc.devRef .tc main_v13) = _
  after_results
  rw [h0]
  rfl

/-- The second kernel's weights are what the first kernel left. -/
theorem weight_read (c : Dev nD) : weightA (V3 m ρ) c = (dat0 (V1 m ρ) c).arrAt 4 cfg0.N := by
  show StableHlo.after hostOps1 (W2 m ρ c) (Proc.devRef .tc main_v12) = _
  after_results
  exact W2_arr m ρ c 4

/-- The bias row is the bias. -/
theorem bias_read (c : Dev nD) (o : Fin 11008) : biasA (V3 m ρ) c (ix2 (0 : Fin 1) o) = biasM m c (ix1 o) := by
  have h : biasA (V3 m ρ) c = shapeCast S1x11008 (biasM m c) shapeCasts_S11008_S1x11008 := by
    show StableHlo.after hostOps1 (W2 m ρ c) (Proc.devRef .tc main_v3) = _
    after_results
    refine (W2_of_ne m ρ c main_v3 (by decide)).trans ?_
    show StableHlo.after hostOps0 (W0 m ρ c) (Proc.devRef .tc main_v3) = _
    after_results
    rfl
  rw [h]
  exact shapeCast_apply _ _ _ _ (by rw [Shape.rowMajor_val_one, Shape.rowMajor_val_two]; simp)

end Cert.KernelIdeal.Gen

end
-- ==== Proof.Dequant.lean ====
/-
  The first kernel: what it leaves in the weight matrix.
-/
import proofs.«408254_j44564580663461_3_alg».proof.Proof.Arrays
import Idealize.ShloMosaic.Lib.Pipeline.Value
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx Idealize.SL.Sem Cert.Nf4
open Idealize.ShloMosaic.Pipeline (Dat)

variable (V : (c : Dev nD) → (b : Ref sig .tc) → Buf (Elt Ideal) ((c : Thread nD τ).loc b))

/-! ## The sixteen-way choice

The kernel has no table lookup: from the low four bits of a code word it forms four one-bit conditions and
walks a binary tree of fifteen two-way choices over the sixteen entries. On every word that tree picks the
entry whose position is the word's low nibble. -/

/-- The lowest bit of the low nibble, as a one-bit condition. -/
private def nbit0 (c : BitVec 32) : BitVec 1 := IntOp.cmpi .ne (IntOp.andi (IntOp.andi c 15#32) 1#32) 0#32

/-- Bit `k` of the low nibble (the nibble shifted right by `k`, its lowest bit tested), as a one-bit condition. -/
private def nbit (c : BitVec 32) (k : BitVec 32) : BitVec 1 :=
  IntOp.cmpi .ne (IntOp.andi (IntOp.shrsi .vector (IntOp.andi c 15#32) k) 1#32) 0#32

/-- The tree of fifteen choices: the lowest bit chooses inside each pair, the next between pairs, and so on. -/
private def tree16 {α : Type} (b0 b1 b2 b3 : BitVec 1) (e0 e1 e2 e3 e4 e5 e6 e7 e8 e9 e10 e11 e12 e13 e14 e15 : α) : α :=
  Scalar.select b3
    (Scalar.select b2 (Scalar.select b1 (Scalar.select b0 e15 e14) (Scalar.select b0 e13 e12))
                      (Scalar.select b1 (Scalar.select b0 e11 e10) (Scalar.select b0 e9 e8)))
    (Scalar.select b2 (Scalar.select b1 (Scalar.select b0 e7 e6) (Scalar.select b0 e5 e4))
                      (Scalar.select b1 (Scalar.select b0 e3 e2) (Scalar.select b0 e1 e0)))

/-- A word whose low nibble is the number `k` has `k` as its table position. -/
private theorem nib_of (c : BitVec 32) (k : Nat) (hk : k < 16) (h : c &&& 15#32 = BitVec.ofNat 32 k) : nib c = ⟨k, hk⟩ := by
  refine Fin.ext ?_
  show (c &&& 15#32).toNat = k
  rw [h, BitVec.toNat_ofNat]
  omega

/-- The low nibble of any word is one of the sixteen numbers below sixteen. -/
private theorem low_nibble (c : BitVec 32) : ∃ k, ∃ hk : k < 16, c &&& 15#32 = BitVec.ofNat 32 k := by
  refine ⟨(c &&& 15#32).toNat, ?_, ?_⟩
  · rw [BitVec.toNat_and]
    exact Nat.lt_of_le_of_lt (Nat.and_le_right (n := c.toNat) (m := 15)) (by decide)
  · exact BitVec.eq_of_toNat_eq (by rw [BitVec.toNat_ofNat, Nat.mod_eq_of_lt (BitVec.isLt _)])

/-- The tree keyed on a word's four low bits picks the entry at the word's low nibble: one of sixteen cases,
    each a computation. -/
private theorem tree16_nib {α : Type} (c : BitVec 32) (f : Fin 16 → α) :
    tree16 (nbit0 c) (nbit c 1#32) (nbit c 2#32) (nbit c 3#32)
      (f 0) (f 1) (f 2) (f 3) (f 4) (f 5) (f 6) (f 7) (f 8) (f 9) (f 10) (f 11) (f 12) (f 13) (f 14) (f 15) = f (nib c) := by
  obtain ⟨k, hk, h⟩ := low_nibble c
  rw [nib_of c k hk h]
  unfold nbit0 nbit
  simp only [IntOp.andi]
  rw [h]
  clear h
  interval_cases k <;> rfl

/-! ## One lane

Every chunk of 512 columns does the same thing to each of its lanes: from the lane's code word, the table row and
the lane's scale it forms the chosen entry times the scale, narrowed to the output format. -/

section Lane
variable {F : FTy → Type} [FloatOps F]

/-- What one lane computes, in the operations the kernel uses (each table entry read as the body reads it:
    a one-by-one slice of the row, then its one element). -/
private def lane (tb : FVec F S1x16 .f32) (c : BitVec 32) (s : F .f32) : F .bf16 :=
  FloatOps.truncf .bf16 bitsLt_bf16_f32
    (FloatOps.mulf
      (tree16 (nbit0 c) (nbit c 1#32) (nbit c 2#32) (nbit c 3#32)
        (extractAt ![0, 0] (extractStridedSlice S1x1 ![0, 0] tb slices_S1x16_o0_0_S1x1) inpos_S1x1_p0_0)
        (extractAt ![0, 0] (extractStridedSlice S1x1 ![0, 1] tb slices_S1x16_o0_1_S1x1) inpos_S1x1_p0_0)
        (extractAt ![0, 0] (extractStridedSlice S1x1 ![0, 2] tb slices_S1x16_o0_2_S1x1) inpos_S1x1_p0_0)
        (extractAt ![0, 0] (extractStridedSlice S1x1 ![0, 3] tb slices_S1x16_o0_3_S1x1) inpos_S1x1_p0_0)
        (extractAt ![0, 0] (extractStridedSlice S1x1 ![0, 4] tb slices_S1x16_o0_4_S1x1) inpos_S1x1_p0_0)
        (extractAt ![0, 0] (extractStridedSlice S1x1 ![0, 5] tb slices_S1x16_o0_5_S1x1) inpos_S1x1_p0_0)
        (extractAt ![0, 0] (extractStridedSlice S1x1 ![0, 6] tb slices_S1x16_o0_6_S1x1) inpos_S1x1_p0_0)
        (extractAt ![0, 0] (extractStridedSlice S1x1 ![0, 7] tb slices_S1x16_o0_7_S1x1) inpos_S1x1_p0_0)
        (extractAt ![0, 0] (extractStridedSlice S1x1 ![0, 8] tb slices_S1x16_o0_8_S1x1) inpos_S1x1_p0_0)
        (extractAt ![0, 0] (extractStridedSlice S1x1 ![0, 9] tb slices_S1x16_o0_9_S1x1) inpos_S1x1_p0_0)
        (extractAt ![0, 0] (extractStridedSlice S1x1 ![0, 10] tb slices_S1x16_o0_10_S1x1) inpos_S1x1_p0_0)
        (extractAt ![0, 0] (extractStridedSlice S1x1 ![0, 11] tb slices_S1x16_o0_11_S1x1) inpos_S1x1_p0_0)
        (extractAt ![0, 0] (extractStridedSlice S1x1 ![0, 12] tb slices_S1x16_o0_12_S1x1) inpos_S1x1_p0_0)
        (extractAt ![0, 0] (extractStridedSlice S1x1 ![0, 13] tb slices_S1x16_o0_13_S1x1) inpos_S1x1_p0_0)
        (extractAt ![0, 0] (extractStridedSlice S1x1 ![0, 14] tb slices_S1x16_o0_14_S1x1) inpos_S1x1_p0_0)
        (extractAt ![0, 0] (extractStridedSlice S1x1 ![0, 15] tb slices_S1x16_o0_15_S1x1) inpos_S1x1_p0_0))
      s)

/-! Each of the eight stores' payloads, however the body's arithmetic was cut into named parts, is at every
    index that one lane of the chunk's code words and the chunk's slice of the spread scales: both sides unfold
    to the same term. -/

private theorem piece_10 (x0 : Vec F S128x4096 .i32) (x1 : Vec F S128x64 .f32) (x2 : Vec F S1x16 .f32) (x3 : Vec F S64x4096 .f32) (i : S128x512.Idx) :
    (k0_pay1 (k0_pay3 (View.ld x1 r0_1) (View.ld x3 r0_2)) (k0_pay89 (View.ld x0 r0_10)) (k0_pay90 (View.ld x0 r0_10)) (k0_pay94 (k0_pay2 (View.ld x2 r0_0)) (k0_pay87 (View.ld x0 r0_10)) (k0_pay88 (View.ld x0 r0_10))) (k0_pay95 (k0_pay2 (View.ld x2 r0_0)) (k0_pay87 (View.ld x0 r0_10)) (k0_pay88 (View.ld x0 r0_10))) (k0_pay96 (k0_pay2 (View.ld x2 r0_0)) (k0_pay87 (View.ld x0 r0_10)) (k0_pay88 (View.ld x0 r0_10)) (k0_pay89 (View.ld x0 r0_10)) (k0_pay91 (k0_pay2 (View.ld x2 r0_0)) (View.ld x0 r0_10)) (k0_pay92 (k0_pay2 (View.ld x2 r0_0)) (View.ld x0 r0_10)) (k0_pay93 (k0_pay2 (View.ld x2 r0_0))))) i
      = lane (k0_pay2 (View.ld x2 r0_0)) (shapeCast (s := S128x512) S128x512 (View.ld x0 r0_10) shapeCasts_S128x512_S128x512 i)
          (extractStridedSlice S128x512 ![0, 3584] (k0_pay3 (View.ld x1 r0_1) (View.ld x3 r0_2)) slices_S128x4096_o0_3584_S128x512 i) := rfl

private theorem piece_9 (x0 : Vec F S128x4096 .i32) (x1 : Vec F S128x64 .f32) (x2 : Vec F S1x16 .f32) (x3 : Vec F S64x4096 .f32) (i : S128x512.Idx) :
    (k0_pay85 (k0_pay84 (k0_pay2 (View.ld x2 r0_0)) (k0_pay3 (View.ld x1 r0_1) (View.ld x3 r0_2)) (k0_pay78 (View.ld x0 r0_9)) (k0_pay79 (View.ld x0 r0_9)) (k0_pay80 (View.ld x0 r0_9)) (k0_pay81 (View.ld x0 r0_9)) (k0_pay82 (k0_pay2 (View.ld x2 r0_0))) (k0_pay83 (k0_pay2 (View.ld x2 r0_0))))) i
      = lane (k0_pay2 (View.ld x2 r0_0)) (shapeCast (s := S128x512) S128x512 (View.ld x0 r0_9) shapeCasts_S128x512_S128x512 i)
          (extractStridedSlice S128x512 ![0, 3072] (k0_pay3 (View.ld x1 r0_1) (View.ld x3 r0_2)) slices_S128x4096_o0_3072_S128x512 i) := rfl

private theorem piece_8 (x0 : Vec F S128x4096 .i32) (x1 : Vec F S128x64 .f32) (x2 : Vec F S1x16 .f32) (x3 : Vec F S64x4096 .f32) (i : S128x512.Idx) :
    (k0_pay76 (k0_pay3 (View.ld x1 r0_1) (View.ld x3 r0_2)) (k0_pay62 (View.ld x0 r0_8)) (k0_pay63 (View.ld x0 r0_8)) (k0_pay64 (View.ld x0 r0_8)) (k0_pay66 (k0_pay65 (View.ld x0 r0_8)) 1#32) (k0_pay67 (k0_pay2 (View.ld x2 r0_0)) (k0_pay62 (View.ld x0 r0_8))) (k0_pay68 (k0_pay2 (View.ld x2 r0_0)) (k0_pay62 (View.ld x0 r0_8))) (k0_pay69 (k0_pay2 (View.ld x2 r0_0)) (k0_pay62 (View.ld x0 r0_8))) (k0_pay70 (k0_pay2 (View.ld x2 r0_0)) (k0_pay62 (View.ld x0 r0_8))) (k0_pay71 (k0_pay2 (View.ld x2 r0_0)) (k0_pay62 (View.ld x0 r0_8))) (k0_pay72 (k0_pay2 (View.ld x2 r0_0)) (k0_pay62 (View.ld x0 r0_8))) (k0_pay73 (k0_pay2 (View.ld x2 r0_0)) (k0_pay62 (View.ld x0 r0_8))) (k0_pay74 (k0_pay2 (View.ld x2 r0_0))) (k0_pay75 (k0_pay2 (View.ld x2 r0_0)))) i
      = lane (k0_pay2 (View.ld x2 r0_0)) (shapeCast (s := S128x512) S128x512 (View.ld x0 r0_8) shapeCasts_S128x512_S128x512 i)
          (extractStridedSlice S128x512 ![0, 2560] (k0_pay3 (View.ld x1 r0_1) (View.ld x3 r0_2)) slices_S128x4096_o0_2560_S128x512 i) := rfl

private theorem piece_7 (x0 : Vec F S128x4096 .i32) (x1 : Vec F S128x64 .f32) (x2 : Vec F S1x16 .f32) (x3 : Vec F S64x4096 .f32) (i : S128x512.Idx) :
    (k0_pay60 (k0_pay2 (View.ld x2 r0_0)) (k0_pay3 (View.ld x1 r0_1) (View.ld x3 r0_2)) (k0_pay47 (View.ld x0 r0_7)) (k0_pay48 (View.ld x0 r0_7)) (k0_pay50 (k0_pay49 (View.ld x0 r0_7))) (k0_pay51 (k0_pay46 (View.ld x0 r0_7))) (k0_pay52 (k0_pay2 (View.ld x2 r0_0)) (k0_pay47 (View.ld x0 r0_7))) (k0_pay53 (k0_pay2 (View.ld x2 r0_0)) (k0_pay47 (View.ld x0 r0_7))) (k0_pay54 (k0_pay2 (View.ld x2 r0_0)) (k0_pay47 (View.ld x0 r0_7))) (k0_pay55 (k0_pay2 (View.ld x2 r0_0)) (k0_pay47 (View.ld x0 r0_7))) (k0_pay56 (k0_pay2 (View.ld x2 r0_0)) (k0_pay47 (View.ld x0 r0_7))) (k0_pay57 (k0_pay2 (View.ld x2 r0_0)) (k0_pay47 (View.ld x0 r0_7))) (k0_pay58 (k0_pay2 (View.ld x2 r0_0))) (k0_pay59 (k0_pay2 (View.ld x2 r0_0)))) i
      = lane (k0_pay2 (View.ld x2 r0_0)) (shapeCast (s := S128x512) S128x512 (View.ld x0 r0_7) shapeCasts_S128x512_S128x512 i)
          (extractStridedSlice S128x512 ![0, 2048] (k0_pay3 (View.ld x1 r0_1) (View.ld x3 r0_2)) slices_S128x4096_o0_2048_S128x512 i) := rfl

private theorem piece_6 (x0 : Vec F S128x4096 .i32) (x1 : Vec F S128x64 .f32) (x2 : Vec F S1x16 .f32) (x3 : Vec F S64x4096 .f32) (i : S128x512.Idx) :
    (k0_pay45 (k0_pay2 (View.ld x2 r0_0)) (k0_pay3 (View.ld x1 r0_1) (View.ld x3 r0_2)) (k0_pay35 (View.ld x0 r0_6)) (k0_pay37 (k0_pay34 (View.ld x0 r0_6)) k0_pay36) (k0_pay38 (k0_pay34 (View.ld x0 r0_6))) (k0_pay39 (k0_pay34 (View.ld x0 r0_6))) (k0_pay40 (k0_pay2 (View.ld x2 r0_0)) (k0_pay35 (View.ld x0 r0_6))) (k0_pay41 (k0_pay2 (View.ld x2 r0_0)) (k0_pay35 (View.ld x0 r0_6))) (k0_pay42 (k0_pay2 (View.ld x2 r0_0)) (k0_pay35 (View.ld x0 r0_6))) (k0_pay43 (k0_pay2 (View.ld x2 r0_0)) (k0_pay35 (View.ld x0 r0_6))) (k0_pay44 (k0_pay2 (View.ld x2 r0_0)) (k0_pay35 (View.ld x0 r0_6)))) i
      = lane (k0_pay2 (View.ld x2 r0_0)) (shapeCast (s := S128x512) S128x512 (View.ld x0 r0_6) shapeCasts_S128x512_S128x512 i)
          (extractStridedSlice S128x512 ![0, 1536] (k0_pay3 (View.ld x1 r0_1) (View.ld x3 r0_2)) slices_S128x4096_o0_1536_S128x512 i) := rfl

private theorem piece_5 (x0 : Vec F S128x4096 .i32) (x1 : Vec F S128x64 .f32) (x2 : Vec F S1x16 .f32) (x3 : Vec F S64x4096 .f32) (i : S128x512.Idx) :
    (k0_pay33 (k0_pay2 (View.ld x2 r0_0)) (k0_pay3 (View.ld x1 r0_1) (View.ld x3 r0_2)) (k0_pay24 (k0_pay22 (View.ld x0 r0_5)) 15#32) (k0_pay25 (k0_pay22 (View.ld x0 r0_5)) 15#32) (k0_pay26 (k0_pay22 (View.ld x0 r0_5)) 15#32) (k0_pay27 (k0_pay22 (View.ld x0 r0_5)) 15#32) (k0_pay28 (k0_pay2 (View.ld x2 r0_0)) (k0_pay22 (View.ld x0 r0_5)) 15#32) (k0_pay29 (k0_pay2 (View.ld x2 r0_0)) (k0_pay22 (View.ld x0 r0_5)) 15#32) (k0_pay30 (k0_pay2 (View.ld x2 r0_0)) (k0_pay22 (View.ld x0 r0_5)) 15#32) (k0_pay31 (k0_pay2 (View.ld x2 r0_0))) (k0_pay32 (k0_pay2 (View.ld x2 r0_0)))) i
      = lane (k0_pay2 (View.ld x2 r0_0)) (shapeCast (s := S128x512) S128x512 (View.ld x0 r0_5) shapeCasts_S128x512_S128x512 i)
          (extractStridedSlice S128x512 ![0, 1024] (k0_pay3 (View.ld x1 r0_1) (View.ld x3 r0_2)) slices_S128x4096_o0_1024_S128x512 i) := rfl

private theorem piece_4 (x0 : Vec F S128x4096 .i32) (x1 : Vec F S128x64 .f32) (x2 : Vec F S1x16 .f32) (x3 : Vec F S64x4096 .f32) (i : S128x512.Idx) :
    (k0_pay21 (k0_pay2 (View.ld x2 r0_0)) (k0_pay3 (View.ld x1 r0_1) (View.ld x3 r0_2)) (k0_pay14 (View.ld x0 r0_4)) (k0_pay15 (View.ld x0 r0_4)) (k0_pay16 (View.ld x0 r0_4)) (k0_pay17 (View.ld x0 r0_4)) (k0_pay18 (k0_pay2 (View.ld x2 r0_0)) (View.ld x0 r0_4)) (k0_pay19 (k0_pay2 (View.ld x2 r0_0)) (View.ld x0 r0_4)) (k0_pay20 (k0_pay2 (View.ld x2 r0_0)))) i
      = lane (k0_pay2 (View.ld x2 r0_0)) (shapeCast (s := S128x512) S128x512 (View.ld x0 r0_4) shapeCasts_S128x512_S128x512 i)
          (extractStridedSlice S128x512 ![0, 512] (k0_pay3 (View.ld x1 r0_1) (View.ld x3 r0_2)) slices_S128x4096_o0_512_S128x512 i) := rfl

private theorem piece_3 (x0 : Vec F S128x4096 .i32) (x1 : Vec F S128x64 .f32) (x2 : Vec F S1x16 .f32) (x3 : Vec F S64x4096 .f32) (i : S128x512.Idx) :
    (k0_pay12 (k0_pay11 (k0_pay2 (View.ld x2 r0_0)) (k0_pay3 (View.ld x1 r0_1) (View.ld x3 r0_2)) (k0_pay5 (View.ld x0 r0_3)) (k0_pay6 (View.ld x0 r0_3)) (k0_pay7 (View.ld x0 r0_3)) (k0_pay8 (View.ld x0 r0_3)) (k0_pay9 (View.ld x2 r0_0)) (k0_pay10 (View.ld x2 r0_0)))) i
      = lane (k0_pay2 (View.ld x2 r0_0)) (shapeCast (s := S128x512) S128x512 (View.ld x0 r0_3) shapeCasts_S128x512_S128x512 i)
          (extractStridedSlice S128x512 ![0, 0] (k0_pay3 (View.ld x1 r0_1) (View.ld x3 r0_2)) slices_S128x4096_o0_0_S128x512 i) := rfl

end Lane

/-- A table entry read through a one-by-one slice is the row's entry at that column. -/
private theorem ent_eq {α : Type} (tb : S1x16.Idx → α) (k : Nat) (hk : k < 16) (h : S1x16.Slices ![0, k] S1x1)
    (h' : ∀ a, (![0, 0] : Fin 2 → Nat) a < S1x1.size a) :
    extractAt ![0, 0] (extractStridedSlice S1x1 ![0, k] tb h) h' = tb (ix2 (0 : Fin 1) (⟨k, hk⟩ : Fin 16)) :=
  extractStridedSlice_apply ![0, k] tb h _ _ (fun a => match a with | ⟨0, _⟩ => rfl | ⟨1, _⟩ => rfl)

/-- On the extended reals a lane is the table entry at the code's low nibble times the scale. -/
private theorem lane_eq (tb : FVec Ideal S1x16 .f32) (c : BitVec 32) (s : EReal) :
    lane (F := Ideal) tb c s = tb (ix2 (0 : Fin 1) (nib c)) * s := by
  unfold lane
  rw [ent_eq tb 0 (by decide), ent_eq tb 1 (by decide), ent_eq tb 2 (by decide), ent_eq tb 3 (by decide), ent_eq tb 4 (by decide), ent_eq tb 5 (by decide), ent_eq tb 6 (by decide), ent_eq tb 7 (by decide), ent_eq tb 8 (by decide), ent_eq tb 9 (by decide), ent_eq tb 10 (by decide), ent_eq tb 11 (by decide), ent_eq tb 12 (by decide), ent_eq tb 13 (by decide), ent_eq tb 14 (by decide), ent_eq tb 15 (by decide)]
  exact congrArg (· * s) (tree16_nib c (fun k => tb (ix2 (0 : Fin 1) k)))

/-! ## The spread scales

The scale block times the zero-one spreading matrix, accumulated into zero: at row `r`, column `j` the sum over
the sixty-four blocks of the row's scale times the matrix entry. -/

private theorem zero2 : (![0, 0] : Fin 2 → Nat) = fun _ => 0 := funext fun a => by fin_cases a <;> rfl

private theorem lhs_scale_0 (i : S128x4096.Idx) (q : dot_S128x64_S64x4096_S128x4096_1_0_0_1_n_n.contr.Idx) :
    (dot_S128x64_S64x4096_S128x4096_1_0_0_1_n_n.lhsIdx i q 0).val = (i 0).val := by
  unfold DotDims.lhsIdx
  rw [dif_neg (show ¬(0 : Fin S128x64.rank) ∈ dot_S128x64_S64x4096_S128x4096_1_0_0_1_n_n.lhsBatch by decide), dif_pos (show (0 : Fin S128x64.rank) ∈ dot_S128x64_S64x4096_S128x4096_1_0_0_1_n_n.lhsNonContracting by decide)]
  rfl
private theorem lhs_scale_1 (i : S128x4096.Idx) (q : dot_S128x64_S64x4096_S128x4096_1_0_0_1_n_n.contr.Idx) :
    (dot_S128x64_S64x4096_S128x4096_1_0_0_1_n_n.lhsIdx i q 1).val = (q ⟨0, by decide⟩).val :=
  dot_S128x64_S64x4096_S128x4096_1_0_0_1_n_n.lhsIdx_val_of_single rfl i q
private theorem rhs_scale_0 (i : S128x4096.Idx) (q : dot_S128x64_S64x4096_S128x4096_1_0_0_1_n_n.contr.Idx) :
    (dot_S128x64_S64x4096_S128x4096_1_0_0_1_n_n.rhsIdx i q 0).val = (q ⟨0, by decide⟩).val :=
  dot_S128x64_S64x4096_S128x4096_1_0_0_1_n_n.rhsIdx_val_of_single rfl i q
private theorem rhs_scale_1 (i : S128x4096.Idx) (q : dot_S128x64_S64x4096_S128x4096_1_0_0_1_n_n.contr.Idx) :
    (dot_S128x64_S64x4096_S128x4096_1_0_0_1_n_n.rhsIdx i q 1).val = (i 1).val := by
  unfold DotDims.rhsIdx
  rw [dif_neg (show ¬(1 : Fin S64x4096.rank) ∈ dot_S128x64_S64x4096_S128x4096_1_0_0_1_n_n.rhsBatch by decide), dif_pos (show (1 : Fin S64x4096.rank) ∈ dot_S128x64_S64x4096_S128x4096_1_0_0_1_n_n.rhsNonContracting by decide)]
  rfl

/-- The product of the scale block and the spreading matrix, at row `r` and column `j`. -/
private theorem spread_apply (x1 : Vec Ideal S128x64 .f32) (x3 : Vec Ideal S64x4096 .f32) (r : Fin 128) (j : Fin 4096) :
    k0_pay3 (F := Ideal) (View.ld x1 r0_1) (View.ld x3 r0_2) (ix2 r j) = ∑ k : Fin 64, x1 (ix2 r k) * x3 (ix2 k j) := by
  rw [View.ld_unit_zero (S := S128x64) zero2, View.ld_unit_zero (S := S64x4096) zero2]
  unfold k0_pay3
  rw [shapeCast_self, shapeCast_self]
  simp only [matmul]
  rw [Ideal.matmul_constant_zero_apply, ← Equiv.sum_comp (ValueIdx.contrEquiv1 dot_S128x64_S64x4096_S128x4096_1_0_0_1_n_n 64 rfl rfl).symm]
  refine Finset.sum_congr rfl fun k _ => ?_
  have hk := ValueIdx.contrEquiv1_symm_val dot_S128x64_S64x4096_S128x4096_1_0_0_1_n_n 64 rfl rfl k
  have el : dot_S128x64_S64x4096_S128x4096_1_0_0_1_n_n.lhsIdx (ix2 r j) ((ValueIdx.contrEquiv1 dot_S128x64_S64x4096_S128x4096_1_0_0_1_n_n 64 rfl rfl).symm k) = ix2 r k := funext fun a => Fin.ext (by
    match a with
    | ⟨0, _⟩ => exact lhs_scale_0 _ _
    | ⟨1, _⟩ => exact (lhs_scale_1 _ _).trans hk)
  have er : dot_S128x64_S64x4096_S128x4096_1_0_0_1_n_n.rhsIdx (ix2 r j) ((ValueIdx.contrEquiv1 dot_S128x64_S64x4096_S128x4096_1_0_0_1_n_n 64 rfl rfl).symm k) = ix2 k j := funext fun a => Fin.ext (by
    match a with
    | ⟨0, _⟩ => exact (rhs_scale_0 _ _).trans hk
    | ⟨1, _⟩ => exact rhs_scale_1 _ _)
  rw [el, er]

/-! ## The block as one function of its index

At row `r`, column `j` of the block: the table entry at the low nibble of the code there, times the spread scale
there. Each chunk's lanes are this function read through the chunk's rectangle, so the eight stores together
leave it in the whole buffer. -/

/-- The block's value as a function of the block index. -/
private def wfun (x0 : Vec Ideal S128x4096 .i32) (x1 : Vec Ideal S128x64 .f32) (x2 : Vec Ideal S1x16 .f32) (x3 : Vec Ideal S64x4096 .f32) :
    S128x4096.Idx → EReal := fun y =>
  x2 (ix2 (0 : Fin 1) (nib (x0 y))) * ∑ k : Fin 64, x1 (ix2 (n0 := 128) (y 0) k) * x3 (ix2 (n1 := 4096) k (y 1))

/-- A lane of the chunk at column offset `off`, at row `r` and column `q` of the chunk, is the block's function at the
    index the chunk's rectangle places it at: row `r`, column `off + q`. -/
private theorem chunk_val (x0 : Vec Ideal S128x4096 .i32) (x1 : Vec Ideal S128x64 .f32) (x2 : Vec Ideal S1x16 .f32) (x3 : Vec Ideal S64x4096 .f32)
    (off : Nat) (hoff : off + 512 ≤ 4096)
    (inb : ∀ a, (![0, off] : Fin 2 → Nat) a + S128x512.size a ≤ S128x4096.size a)
    (hs : S128x4096.Slices ![0, off] S128x512) (r : Fin 128) (q : Fin 512) :
    lane (F := Ideal) (k0_pay2 (View.ld x2 r0_0))
        (shapeCast (s := S128x512) S128x512 (View.ld x0 (Rect.unit (s := S128x4096) ![0, off] S128x512.size inb)) shapeCasts_S128x512_S128x512 (ix2 r q))
        (extractStridedSlice S128x512 ![0, off] (k0_pay3 (F := Ideal) (View.ld x1 r0_1) (View.ld x3 r0_2)) hs (ix2 r q))
      = wfun x0 x1 x2 x3 ((Rect.unit (s := S128x4096) ![0, off] S128x512.size inb).emb (ix2 r q)) := by
  have e0 : ((Rect.unit (s := S128x4096) ![0, off] S128x512.size inb).emb (ix2 r q)) 0 = r := Fin.ext (by show 0 + 1 * r.val = r.val; omega)
  have e1 : ((Rect.unit (s := S128x4096) ![0, off] S128x512.size inb).emb (ix2 r q)) 1 = (⟨off + q.val, by omega⟩ : Fin 4096) :=
    Fin.ext (by show off + 1 * q.val = off + q.val; omega)
  rw [lane_eq]
  unfold k0_pay2 wfun
  rw [e0, e1, shapeCast_self, shapeCast_self, View.ld_unit_zero (S := S1x16) zero2,
    extractStridedSlice_apply ![0, off] _ hs (ix2 r q) (ix2 r (⟨off + q.val, by omega⟩ : Fin 4096))
      (fun a => match a with | ⟨0, _⟩ => (Nat.zero_add _).symm | ⟨1, _⟩ => rfl),
    spread_apply]
  rfl

private theorem pieceG_10 (x0 : Vec Ideal S128x4096 .i32) (x1 : Vec Ideal S128x64 .f32) (x2 : Vec Ideal S1x16 .f32) (x3 : Vec Ideal S64x4096 .f32) (x : S128x512.Idx) :
    (k0_pay1 (k0_pay3 (View.ld x1 r0_1) (View.ld x3 r0_2)) (k0_pay89 (View.ld x0 r0_10)) (k0_pay90 (View.ld x0 r0_10)) (k0_pay94 (k0_pay2 (View.ld x2 r0_0)) (k0_pay87 (View.ld x0 r0_10)) (k0_pay88 (View.ld x0 r0_10))) (k0_pay95 (k0_pay2 (View.ld x2 r0_0)) (k0_pay87 (View.ld x0 r0_10)) (k0_pay88 (View.ld x0 r0_10))) (k0_pay96 (k0_pay2 (View.ld x2 r0_0)) (k0_pay87 (View.ld x0 r0_10)) (k0_pay88 (View.ld x0 r0_10)) (k0_pay89 (View.ld x0 r0_10)) (k0_pay91 (k0_pay2 (View.ld x2 r0_0)) (View.ld x0 r0_10)) (k0_pay92 (k0_pay2 (View.ld x2 r0_0)) (View.ld x0 r0_10)) (k0_pay93 (k0_pay2 (View.ld x2 r0_0))))) x = wfun x0 x1 x2 x3 (r0_10.emb x) := by
  obtain ⟨a, b, rfl⟩ : ∃ (a : Fin 128) (b : Fin 512), x = ix2 a b := ⟨x 0, x 1, eq_ix2 x⟩
  exact (piece_10 x0 x1 x2 x3 (ix2 a b)).trans (chunk_val x0 x1 x2 x3 3584 (by decide) _ _ a b)

private theorem pieceG_9 (x0 : Vec Ideal S128x4096 .i32) (x1 : Vec Ideal S128x64 .f32) (x2 : Vec Ideal S1x16 .f32) (x3 : Vec Ideal S64x4096 .f32) (x : S128x512.Idx) :
    (k0_pay85 (k0_pay84 (k0_pay2 (View.ld x2 r0_0)) (k0_pay3 (View.ld x1 r0_1) (View.ld x3 r0_2)) (k0_pay78 (View.ld x0 r0_9)) (k0_pay79 (View.ld x0 r0_9)) (k0_pay80 (View.ld x0 r0_9)) (k0_pay81 (View.ld x0 r0_9)) (k0_pay82 (k0_pay2 (View.ld x2 r0_0))) (k0_pay83 (k0_pay2 (View.ld x2 r0_0))))) x = wfun x0 x1 x2 x3 (r0_9.emb x) := by
  obtain ⟨a, b, rfl⟩ : ∃ (a : Fin 128) (b : Fin 512), x = ix2 a b := ⟨x 0, x 1, eq_ix2 x⟩
  exact (piece_9 x0 x1 x2 x3 (ix2 a b)).trans (chunk_val x0 x1 x2 x3 3072 (by decide) _ _ a b)

private theorem pieceG_8 (x0 : Vec Ideal S128x4096 .i32) (x1 : Vec Ideal S128x64 .f32) (x2 : Vec Ideal S1x16 .f32) (x3 : Vec Ideal S64x4096 .f32) (x : S128x512.Idx) :
    (k0_pay76 (k0_pay3 (View.ld x1 r0_1) (View.ld x3 r0_2)) (k0_pay62 (View.ld x0 r0_8)) (k0_pay63 (View.ld x0 r0_8)) (k0_pay64 (View.ld x0 r0_8)) (k0_pay66 (k0_pay65 (View.ld x0 r0_8)) 1#32) (k0_pay67 (k0_pay2 (View.ld x2 r0_0)) (k0_pay62 (View.ld x0 r0_8))) (k0_pay68 (k0_pay2 (View.ld x2 r0_0)) (k0_pay62 (View.ld x0 r0_8))) (k0_pay69 (k0_pay2 (View.ld x2 r0_0)) (k0_pay62 (View.ld x0 r0_8))) (k0_pay70 (k0_pay2 (View.ld x2 r0_0)) (k0_pay62 (View.ld x0 r0_8))) (k0_pay71 (k0_pay2 (View.ld x2 r0_0)) (k0_pay62 (View.ld x0 r0_8))) (k0_pay72 (k0_pay2 (View.ld x2 r0_0)) (k0_pay62 (View.ld x0 r0_8))) (k0_pay73 (k0_pay2 (View.ld x2 r0_0)) (k0_pay62 (View.ld x0 r0_8))) (k0_pay74 (k0_pay2 (View.ld x2 r0_0))) (k0_pay75 (k0_pay2 (View.ld x2 r0_0)))) x = wfun x0 x1 x2 x3 (r0_8.emb x) := by
  obtain ⟨a, b, rfl⟩ : ∃ (a : Fin 128) (b : Fin 512), x = ix2 a b := ⟨x 0, x 1, eq_ix2 x⟩
  exact (piece_8 x0 x1 x2 x3 (ix2 a b)).trans (chunk_val x0 x1 x2 x3 2560 (by decide) _ _ a b)

private theorem pieceG_7 (x0 : Vec Ideal S128x4096 .i32) (x1 : Vec Ideal S128x64 .f32) (x2 : Vec Ideal S1x16 .f32) (x3 : Vec Ideal S64x4096 .f32) (x : S128x512.Idx) :
    (k0_pay60 (k0_pay2 (View.ld x2 r0_0)) (k0_pay3 (View.ld x1 r0_1) (View.ld x3 r0_2)) (k0_pay47 (View.ld x0 r0_7)) (k0_pay48 (View.ld x0 r0_7)) (k0_pay50 (k0_pay49 (View.ld x0 r0_7))) (k0_pay51 (k0_pay46 (View.ld x0 r0_7))) (k0_pay52 (k0_pay2 (View.ld x2 r0_0)) (k0_pay47 (View.ld x0 r0_7))) (k0_pay53 (k0_pay2 (View.ld x2 r0_0)) (k0_pay47 (View.ld x0 r0_7))) (k0_pay54 (k0_pay2 (View.ld x2 r0_0)) (k0_pay47 (View.ld x0 r0_7))) (k0_pay55 (k0_pay2 (View.ld x2 r0_0)) (k0_pay47 (View.ld x0 r0_7))) (k0_pay56 (k0_pay2 (View.ld x2 r0_0)) (k0_pay47 (View.ld x0 r0_7))) (k0_pay57 (k0_pay2 (View.ld x2 r0_0)) (k0_pay47 (View.ld x0 r0_7))) (k0_pay58 (k0_pay2 (View.ld x2 r0_0))) (k0_pay59 (k0_pay2 (View.ld x2 r0_0)))) x = wfun x0 x1 x2 x3 (r0_7.emb x) := by
  obtain ⟨a, b, rfl⟩ : ∃ (a : Fin 128) (b : Fin 512), x = ix2 a b := ⟨x 0, x 1, eq_ix2 x⟩
  exact (piece_7 x0 x1 x2 x3 (ix2 a b)).trans (chunk_val x0 x1 x2 x3 2048 (by decide) _ _ a b)

private theorem pieceG_6 (x0 : Vec Ideal S128x4096 .i32) (x1 : Vec Ideal S128x64 .f32) (x2 : Vec Ideal S1x16 .f32) (x3 : Vec Ideal S64x4096 .f32) (x : S128x512.Idx) :
    (k0_pay45 (k0_pay2 (View.ld x2 r0_0)) (k0_pay3 (View.ld x1 r0_1) (View.ld x3 r0_2)) (k0_pay35 (View.ld x0 r0_6)) (k0_pay37 (k0_pay34 (View.ld x0 r0_6)) k0_pay36) (k0_pay38 (k0_pay34 (View.ld x0 r0_6))) (k0_pay39 (k0_pay34 (View.ld x0 r0_6))) (k0_pay40 (k0_pay2 (View.ld x2 r0_0)) (k0_pay35 (View.ld x0 r0_6))) (k0_pay41 (k0_pay2 (View.ld x2 r0_0)) (k0_pay35 (View.ld x0 r0_6))) (k0_pay42 (k0_pay2 (View.ld x2 r0_0)) (k0_pay35 (View.ld x0 r0_6))) (k0_pay43 (k0_pay2 (View.ld x2 r0_0)) (k0_pay35 (View.ld x0 r0_6))) (k0_pay44 (k0_pay2 (View.ld x2 r0_0)) (k0_pay35 (View.ld x0 r0_6)))) x = wfun x0 x1 x2 x3 (r0_6.emb x) := by
  obtain ⟨a, b, rfl⟩ : ∃ (a : Fin 128) (b : Fin 512), x = ix2 a b := ⟨x 0, x 1, eq_ix2 x⟩
  exact (piece_6 x0 x1 x2 x3 (ix2 a b)).trans (chunk_val x0 x1 x2 x3 1536 (by decide) _ _ a b)

private theorem pieceG_5 (x0 : Vec Ideal S128x4096 .i32) (x1 : Vec Ideal S128x64 .f32) (x2 : Vec Ideal S1x16 .f32) (x3 : Vec Ideal S64x4096 .f32) (x : S128x512.Idx) :
    (k0_pay33 (k0_pay2 (View.ld x2 r0_0)) (k0_pay3 (View.ld x1 r0_1) (View.ld x3 r0_2)) (k0_pay24 (k0_pay22 (View.ld x0 r0_5)) 15#32) (k0_pay25 (k0_pay22 (View.ld x0 r0_5)) 15#32) (k0_pay26 (k0_pay22 (View.ld x0 r0_5)) 15#32) (k0_pay27 (k0_pay22 (View.ld x0 r0_5)) 15#32) (k0_pay28 (k0_pay2 (View.ld x2 r0_0)) (k0_pay22 (View.ld x0 r0_5)) 15#32) (k0_pay29 (k0_pay2 (View.ld x2 r0_0)) (k0_pay22 (View.ld x0 r0_5)) 15#32) (k0_pay30 (k0_pay2 (View.ld x2 r0_0)) (k0_pay22 (View.ld x0 r0_5)) 15#32) (k0_pay31 (k0_pay2 (View.ld x2 r0_0))) (k0_pay32 (k0_pay2 (View.ld x2 r0_0)))) x = wfun x0 x1 x2 x3 (r0_5.emb x) := by
  obtain ⟨a, b, rfl⟩ : ∃ (a : Fin 128) (b : Fin 512), x = ix2 a b := ⟨x 0, x 1, eq_ix2 x⟩
  exact (piece_5 x0 x1 x2 x3 (ix2 a b)).trans (chunk_val x0 x1 x2 x3 1024 (by decide) _ _ a b)

private theorem pieceG_4 (x0 : Vec Ideal S128x4096 .i32) (x1 : Vec Ideal S128x64 .f32) (x2 : Vec Ideal S1x16 .f32) (x3 : Vec Ideal S64x4096 .f32) (x : S128x512.Idx) :
    (k0_pay21 (k0_pay2 (View.ld x2 r0_0)) (k0_pay3 (View.ld x1 r0_1) (View.ld x3 r0_2)) (k0_pay14 (View.ld x0 r0_4)) (k0_pay15 (View.ld x0 r0_4)) (k0_pay16 (View.ld x0 r0_4)) (k0_pay17 (View.ld x0 r0_4)) (k0_pay18 (k0_pay2 (View.ld x2 r0_0)) (View.ld x0 r0_4)) (k0_pay19 (k0_pay2 (View.ld x2 r0_0)) (View.ld x0 r0_4)) (k0_pay20 (k0_pay2 (View.ld x2 r0_0)))) x = wfun x0 x1 x2 x3 (r0_4.emb x) := by
  obtain ⟨a, b, rfl⟩ : ∃ (a : Fin 128) (b : Fin 512), x = ix2 a b := ⟨x 0, x 1, eq_ix2 x⟩
  exact (piece_4 x0 x1 x2 x3 (ix2 a b)).trans (chunk_val x0 x1 x2 x3 512 (by decide) _ _ a b)

private theorem pieceG_3 (x0 : Vec Ideal S128x4096 .i32) (x1 : Vec Ideal S128x64 .f32) (x2 : Vec Ideal S1x16 .f32) (x3 : Vec Ideal S64x4096 .f32) (x : S128x512.Idx) :
    (k0_pay12 (k0_pay11 (k0_pay2 (View.ld x2 r0_0)) (k0_pay3 (View.ld x1 r0_1) (View.ld x3 r0_2)) (k0_pay5 (View.ld x0 r0_3)) (k0_pay6 (View.ld x0 r0_3)) (k0_pay7 (View.ld x0 r0_3)) (k0_pay8 (View.ld x0 r0_3)) (k0_pay9 (View.ld x2 r0_0)) (k0_pay10 (View.ld x2 r0_0)))) x = wfun x0 x1 x2 x3 (r0_3.emb x) := by
  obtain ⟨a, b, rfl⟩ : ∃ (a : Fin 128) (b : Fin 512), x = ix2 a b := ⟨x 0, x 1, eq_ix2 x⟩
  exact (piece_3 x0 x1 x2 x3 (ix2 a b)).trans (chunk_val x0 x1 x2 x3 0 (by decide) _ _ a b)

/-- One block of the first kernel's output at row `r`, column `j`: the table entry the code's low four bits select,
    times the row of scales spread over the columns. -/
theorem out0_4_apply (x0 : Vec Ideal S128x4096 .i32) (x1 : Vec Ideal S128x64 .f32) (x2 : Vec Ideal S1x16 .f32)
    (x3 : Vec Ideal S64x4096 .f32) (r : Fin 128) (j : Fin 4096) :
    out0_4 (F := Ideal) x0 x1 x2 x3 (ix2 r j)
      = x2 (ix2 (0 : Fin 1) (nib (x0 (ix2 r j)))) * ∑ k : Fin 64, x1 (ix2 r k) * x3 (ix2 k j) := by
  unfold out0_4
  refine (View.canon_apply_of_pieces (wfun x0 x1 x2 x3) _ ?_ (ix2 r j) (cover0_4 _ _ _ _ _ _ _ _ (ix2 r j))).trans rfl
  intro p hp
  rcases List.mem_cons.mp hp with rfl | hp
  · exact pieceG_10 x0 x1 x2 x3
  rcases List.mem_cons.mp hp with rfl | hp
  · exact pieceG_9 x0 x1 x2 x3
  rcases List.mem_cons.mp hp with rfl | hp
  · exact pieceG_8 x0 x1 x2 x3
  rcases List.mem_cons.mp hp with rfl | hp
  · exact pieceG_7 x0 x1 x2 x3
  rcases List.mem_cons.mp hp with rfl | hp
  · exact pieceG_6 x0 x1 x2 x3
  rcases List.mem_cons.mp hp with rfl | hp
  · exact pieceG_5 x0 x1 x2 x3
  rcases List.mem_cons.mp hp with rfl | hp
  · exact pieceG_4 x0 x1 x2 x3
  rcases List.mem_cons.mp hp with rfl | hp
  · exact pieceG_3 x0 x1 x2 x3
  exact absurd hp List.not_mem_nil

/-- Where the five windows' blocks sit at point `t` of the eighty-six: the codes', the scales' and the weights' block
    row is `t`; the table row and the spreading matrix are read whole. -/
private theorem block_indices0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The codes' block at point `t` is rows `128 t …` of the code matrix. -/
private theorem codes_block (c : Dev nD) (t : Fin cfg0.N) (r : Fin 128) (j : Fin 4096) (u : Fin 11008) (v : Fin 4096)
    (hu : u.val = t.val * 128 + r.val) (hv : v.val = j.val) :
    (iblk0 V c 0 t : Vec Ideal S128x4096 .i32) (ix2 r j) = codesA V c (ix2 u v) := by
  obtain ⟨e0, e1, -⟩ := block_indices0 t
  unfold iblk0
  rw [View.read_apply]
  show V c main_v0 _ = V c main_v0 _
  congr 1
  funext a
  apply Fin.ext
  match a with
  | ⟨0, _⟩ => show win0_0.index t (0 : Fin 2) * 128 + 1 * r.val = u.val; rw [e0, hu]; omega
  | ⟨1, _⟩ => show win0_0.index t (1 : Fin 2) * 4096 + 1 * j.val = v.val; rw [e1, hv]; omega

/-- The scales' block at point `t` is rows `128 t …` of the scale matrix. -/
private theorem scales_block (c : Dev nD) (t : Fin cfg0.N) (r : Fin 128) (k : Fin 64) (u : Fin 11008)
    (hu : u.val = t.val * 128 + r.val) :
    (iblk0 V c 1 t : Vec Ideal S128x64 .f32) (ix2 r k) = scalesA V c (ix2 u k) := by
  obtain ⟨-, -, e2, e3, -⟩ := block_indices0 t
  unfold iblk0
  rw [View.read_apply]
  show V c main_v1 _ = V c main_v1 _
  congr 1
  funext a
  apply Fin.ext
  match a with
  | ⟨0, _⟩ => show win0_1.index t (0 : Fin 2) * 128 + 1 * r.val = u.val; rw [e2, hu]; omega
  | ⟨1, _⟩ => show win0_1.index t (1 : Fin 2) * 64 + 1 * k.val = k.val; rw [e3]; omega

/-- The table's block is the table row at every point. -/
private theorem table_block (c : Dev nD) (t : Fin cfg0.N) (e : Fin 16) :
    (iblk0 V c 2 t : Vec Ideal S1x16 .f32) (ix2 (0 : Fin 1) e) = tableA V c (ix2 (0 : Fin 1) e) := by
  obtain ⟨-, -, -, -, e4, e5, -⟩ := block_indices0 t
  unfold iblk0
  rw [View.read_apply]
  show V c main_v2 _ = V c main_v2 _
  congr 1
  funext a
  apply Fin.ext
  match a with
  | ⟨0, _⟩ => show win0_2.index t (0 : Fin 2) * 1 + 1 * 0 = 0; rw [e4]
  | ⟨1, _⟩ => show win0_2.index t (1 : Fin 2) * 16 + 1 * e.val = e.val; rw [e5]; omega

/-- The spreading matrix's block is the whole matrix at every point. -/
private theorem spread_block (c : Dev nD) (t : Fin cfg0.N) (k : Fin 64) (j : Fin 4096) (v : Fin 4096) (hv : v.val = j.val) :
    (iblk0 V c 3 t : Vec Ideal S64x4096 .f32) (ix2 k j) = spreadA V c (ix2 k v) := by
  obtain ⟨-, -, -, -, -, -, e6, e7, -⟩ := block_indices0 t
  unfold iblk0
  rw [View.read_apply]
  show V c main_v11 _ = V c main_v11 _
  congr 1
  funext a
  apply Fin.ext
  match a with
  | ⟨0, _⟩ => show win0_3.index t (0 : Fin 2) * 64 + 1 * k.val = k.val; rw [e6]; omega
  | ⟨1, _⟩ => show win0_3.index t (1 : Fin 2) * 4096 + 1 * j.val = v.val; rw [e7, hv]; omega

/-- A block of the weights whose input blocks are the rows from `128 i₀` of the codes and of the scales, the table row
    and the spreading matrix holds, at row `r` and column `j`, the table entry selected by code `(128 i₀ + r, j)`
    times that row's scales summed against column `j` of the spreading matrix. -/
private theorem block_entry0 (C : IVec S11008x4096 32) (S : FVec Ideal S11008x64 .f32) (T : FVec Ideal S1x16 .f32)
    (E : FVec Ideal S64x4096 .f32)
    (x0 : Vec Ideal S128x4096 .i32) (x1 : Vec Ideal S128x64 .f32) (x2 : Vec Ideal S1x16 .f32) (x3 : Vec Ideal S64x4096 .f32) (i₀ : ℕ)
    (h0 : ∀ (r : Fin 128) (j : Fin 4096) (u : Fin 11008) (v : Fin 4096), u.val = i₀ * 128 + r.val → v.val = j.val →
      x0 (ix2 r j) = C (ix2 u v))
    (h1 : ∀ (r : Fin 128) (k : Fin 64) (u : Fin 11008), u.val = i₀ * 128 + r.val → x1 (ix2 r k) = S (ix2 u k))
    (h2 : ∀ e : Fin 16, x2 (ix2 (0 : Fin 1) e) = T (ix2 (0 : Fin 1) e))
    (h3 : ∀ (k : Fin 64) (j : Fin 4096) (v : Fin 4096), v.val = j.val → x3 (ix2 k j) = E (ix2 k v))
    (r : Fin 128) (j : Fin 4096) (u : Fin 11008) (v : Fin 4096) (hu : u.val = i₀ * 128 + r.val) (hv : v.val = j.val) :
    out0_4 (F := Ideal) x0 x1 x2 x3 (ix2 r j)
      = T (ix2 (0 : Fin 1) (nib (C (ix2 u v)))) * ∑ k : Fin 64, S (ix2 u k) * E (ix2 k v) := by
  rw [out0_4_apply, h0 r j u v hu hv, h2]
  congr 1
  exact Finset.sum_congr rfl fun k _ => by rw [h1 r k u hu, h3 k j v hv]

/-- The weight matrix as the first kernel computes it: entry `(o, i)` is the table entry the code selects times the
    row's scales summed against column `i` of the spreading matrix. -/
private abbrev weights (c : Dev nD) : S11008x4096.Idx → EReal := fun j =>
  tableA V c (ix2 (0 : Fin 1) (nib (codesA V c (ix2 (j 0) (j 1)))))
    * ∑ k : Fin 64, scalesA V c (ix2 (j 0) k) * spreadA V c (ix2 k (j 1))

/-- What point `t` writes back is block `t` of that matrix. -/
private theorem flushed_eq0 (c : Dev nD) (t : Fin cfg0.N) :
    (dat0 (F := Ideal) V c).flushed 4 t = ((cfg0.win 4).blk t).view.read (Elt Ideal) (weights V c) := by
  show (cfg0.win 4).cut (grid0.coords t) ((dat0 (F := Ideal) V c).after 4 t) = _
  rw [after0_4]
  obtain ⟨-, -, -, -, -, -, -, -, e8, e9⟩ := block_indices0 t
  funext y
  show out0_4 (F := Ideal) (iblk0 V c 0 t) (iblk0 V c 1 t) (iblk0 V c 2 t) (iblk0 V c 3 t) y
    = weights V c (((cfg0.win 4).blk t).view.emb y)
  have hy : y = ix2 (y 0) (y 1) := @eq_ix2 128 4096 y
  have hu : ((((cfg0.win 4).blk t).view.emb y) 0).val = t.val * 128 + (y 0).val := by
    show win0_4.index t (0 : Fin 2) * 128 + 1 * (y 0).val = _
    rw [e8]; omega
  have hv : ((((cfg0.win 4).blk t).view.emb y) 1).val = (y 1).val := by
    show win0_4.index t (1 : Fin 2) * 4096 + 1 * (y 1).val = _
    rw [e9]; omega
  refine (congrArg (out0_4 (F := Ideal) (iblk0 V c 0 t) (iblk0 V c 1 t) (iblk0 V c 2 t) (iblk0 V c 3 t)) hy).trans ?_
  exact block_entry0 (codesA V c) (scalesA V c) (tableA V c) (spreadA V c)
    (iblk0 V c 0 t) (iblk0 V c 1 t) (iblk0 V c 2 t) (iblk0 V c 3 t) t.val
    (fun r j u v h h' => codes_block V c t r j u v h h') (fun r k u h => scales_block V c t r k u h)
    (fun e => table_block V c t e) (fun k j v h => spread_block V c t k j v h)
    (y 0) (y 1) ((((cfg0.win 4).blk t).view.emb y) 0) ((((cfg0.win 4).blk t).view.emb y) 1) hu hv

/-- An entry of the weight matrix lies in point `t`'s block exactly when each coordinate lies in the block's range. -/
private theorem mem_block0 (t : Fin cfg0.N) (i : S11008x4096.Idx) :
    i ∈ ((cfg0.win 4).blk t).view.set ↔ ∀ a : Fin 2, win0_4.index t a * S128x4096.size a ≤ (i a).val
      ∧ (i a).val < win0_4.index t a * S128x4096.size a + S128x4096.size a := by
  show i ∈ ((View.whole main_v12).slice (win0_4.rect t)).set ↔ _
  rw [View.set_slice_whole, Rect.mem_set_unit]
  exact Iff.rfl

/-- Every entry `(o, i)` of the weight matrix is in the block of the point `o / 128`, which is written back. -/
private theorem covered0 (i : S11008x4096.Idx) :
    ∃ t : Fin cfg0.N, (cfg0.win 4).flush t = true ∧ i ∈ ((cfg0.win 4).blk t).view.set := by
  have hi0 : (i 0).val < 11008 := (i 0).isLt
  have hi1 : (i 1).val < 4096 := (i 1).isLt
  obtain ⟨t, ht⟩ : ∃ t : Fin cfg0.N, t.val = (i 0).val / 128 :=
    ⟨⟨(i 0).val / 128, by rw [show cfg0.N = 86 from N_0]; omega⟩, rfl⟩
  obtain ⟨-, -, -, -, -, -, -, -, e8, e9⟩ := block_indices0 t
  refine ⟨t, flush0_4 t, ?_⟩
  rw [mem_block0]
  intro a
  match a with
  | ⟨0, _⟩ =>
    show win0_4.index t (0 : Fin 2) * 128 ≤ (i 0).val ∧ (i 0).val < win0_4.index t (0 : Fin 2) * 128 + 128
    rw [e8, ht]; omega
  | ⟨1, _⟩ =>
    show win0_4.index t (1 : Fin 2) * 4096 ≤ (i 1).val ∧ (i 1).val < win0_4.index t (1 : Fin 2) * 4096 + 4096
    rw [e9]; omega

/-- The weight matrix after the first kernel has run over all its eighty-six row blocks. -/
theorem arr0 (c : Dev nD) :
    (dat0 (F := Ideal) V c).arrAt 4 cfg0.N
      = fun j : S11008x4096.Idx =>
          tableA V c (ix2 (0 : Fin 1) (nib (codesA V c j)))
            * ∑ k : Fin 64, scalesA V c (ix2 (j 0) k) * spreadA V c (ix2 k (j 1)) := by
  refine ((dat0 (F := Ideal) V c).arrAt_eq_of_cover 4 (weights V c) (fun t _ => flushed_eq0 V c t) covered0).trans ?_
  funext j
  have hj : (ix2 (j 0) (j 1) : S11008x4096.Idx) = j := (@eq_ix2 11008 4096 j).symm
  exact congrArg (fun q : S11008x4096.Idx => tableA V c (ix2 (0 : Fin 1) (nib (codesA V c q)))
    * ∑ k : Fin 64, scalesA V c (ix2 (j 0) k) * spreadA V c (ix2 k (j 1))) hj

end Cert.KernelIdeal.Gen

end
-- ==== Proof.Project.lean ====
/-
  The second kernel: what it leaves in the result matrix.
-/
import proofs.«408254_j44564580663461_3_alg».proof.Proof.Arrays
import Idealize.ShloMosaic.Lib.Pipeline.Value
import Idealize.ShloMosaic.PureOps.Ideal.Laws

set_option maxRecDepth 16384

noncomputable section

open scoped BigOperators

namespace Cert.KernelIdeal.Gen

open Idealize.ShloMosaic Idealize.ShloMosaic.TcCoe Idealize.ShloMosaic.ValueIdx Idealize.SL.Sem Cert.Nf4
open Idealize.ShloMosaic.Pipeline (Dat)

variable (V : (c : Dev nD) → (b : Ref sig .tc) → Buf (Elt Ideal) ((c : Thread nD τ).loc b))

/-- The left operand's row coordinate is the result's row. -/
private theorem lhs_row (i : S1024x256.Idx) (q : dot_S1024x4096_S256x4096_S1024x256_1_1_0_0_n_n.contr.Idx) :
    (dot_S1024x4096_S256x4096_S1024x256_1_1_0_0_n_n.lhsIdx i q 0).val = (i 0).val := by
  unfold DotDims.lhsIdx
  rw [dif_neg (show ¬(0 : Fin S1024x4096.rank) ∈ dot_S1024x4096_S256x4096_S1024x256_1_1_0_0_n_n.lhsBatch by decide), dif_pos (show (0 : Fin S1024x4096.rank) ∈ dot_S1024x4096_S256x4096_S1024x256_1_1_0_0_n_n.lhsNonContracting by decide)]
  rfl
/-- The left operand's column coordinate is the summation index. -/
private theorem lhs_col (i : S1024x256.Idx) (q : dot_S1024x4096_S256x4096_S1024x256_1_1_0_0_n_n.contr.Idx) :
    (dot_S1024x4096_S256x4096_S1024x256_1_1_0_0_n_n.lhsIdx i q 1).val = (q ⟨0, by decide⟩).val :=
  dot_S1024x4096_S256x4096_S1024x256_1_1_0_0_n_n.lhsIdx_val_of_single rfl i q
/-- The right operand's row coordinate is the result's column. -/
private theorem rhs_row (i : S1024x256.Idx) (q : dot_S1024x4096_S256x4096_S1024x256_1_1_0_0_n_n.contr.Idx) :
    (dot_S1024x4096_S256x4096_S1024x256_1_1_0_0_n_n.rhsIdx i q 0).val = (i 1).val := by
  unfold DotDims.rhsIdx
  rw [dif_neg (show ¬(0 : Fin S256x4096.rank) ∈ dot_S1024x4096_S256x4096_S1024x256_1_1_0_0_n_n.rhsBatch by decide), dif_pos (show (0 : Fin S256x4096.rank) ∈ dot_S1024x4096_S256x4096_S1024x256_1_1_0_0_n_n.rhsNonContracting by decide)]
  rfl
/-- The right operand's column coordinate is the summation index. -/
private theorem rhs_col (i : S1024x256.Idx) (q : dot_S1024x4096_S256x4096_S1024x256_1_1_0_0_n_n.contr.Idx) :
    (dot_S1024x4096_S256x4096_S1024x256_1_1_0_0_n_n.rhsIdx i q 1).val = (q ⟨0, by decide⟩).val :=
  dot_S1024x4096_S256x4096_S1024x256_1_1_0_0_n_n.rhsIdx_val_of_single rfl i q

/-- The product of a 1024 × 4096 block with the transpose of a 256 × 4096 block, accumulated from zero, at row `r`
    and column `q`: the inner product of row `r` of the first with row `q` of the second. -/
private theorem matmul_entry (a : FVec Ideal S1024x4096 .bf16) (b : FVec Ideal S256x4096 .bf16) (r : Fin 1024) (q : Fin 256) :
    matmul dot_S1024x4096_S256x4096_S1024x256_1_1_0_0_n_n none a b (constant (F := Ideal) S1024x256 .f32 0x00000000#32) (ix2 r q)
      = ∑ k : Fin 4096, a (ix2 r k) * b (ix2 q k) := by
  show FloatOps.matmul dot_S1024x4096_S256x4096_S1024x256_1_1_0_0_n_n none a b (constant (F := Ideal) S1024x256 .f32 0x00000000#32) (ix2 r q) = _
  rw [Ideal.matmul_constant_zero_apply, ← Equiv.sum_comp (ValueIdx.contrEquiv1 dot_S1024x4096_S256x4096_S1024x256_1_1_0_0_n_n 4096 rfl rfl).symm]
  refine Finset.sum_congr rfl fun k _ => ?_
  have hk := ValueIdx.contrEquiv1_symm_val dot_S1024x4096_S256x4096_S1024x256_1_1_0_0_n_n 4096 rfl rfl k
  have el : dot_S1024x4096_S256x4096_S1024x256_1_1_0_0_n_n.lhsIdx (ix2 r q) ((ValueIdx.contrEquiv1 dot_S1024x4096_S256x4096_S1024x256_1_1_0_0_n_n 4096 rfl rfl).symm k) = ix2 r k := funext fun d => Fin.ext (by
    match d with
    | ⟨0, _⟩ => exact lhs_row _ _
    | ⟨1, _⟩ => exact (lhs_col _ _).trans hk)
  have er : dot_S1024x4096_S256x4096_S1024x256_1_1_0_0_n_n.rhsIdx (ix2 r q) ((ValueIdx.contrEquiv1 dot_S1024x4096_S256x4096_S1024x256_1_1_0_0_n_n 4096 rfl rfl).symm k) = ix2 q k := funext fun d => Fin.ext (by
    match d with
    | ⟨0, _⟩ => exact rhs_row _ _
    | ⟨1, _⟩ => exact (rhs_col _ _).trans hk)
  rw [el, er]

/-- The bias row spread over the 1024 rows reads, at row `r` and column `q`, the bias of column `q`. -/
private theorem bias_entry (x : FVec Ideal S1x256 .f32) (r : Fin 1024) (q : Fin 256) :
    broadcastTo S1024x256 x broadcasts_S1x256_S1024x256 (ix2 r q) = x (ix2 (0 : Fin 1) q) :=
  broadcastTo_apply x broadcasts_S1x256_S1024x256 (ix2 r q) (ix2 (0 : Fin 1) q) (fun d => match d with
    | ⟨0, _⟩ => by show 0 = if (1 : Nat) = 1 then 0 else _; rw [if_pos rfl]
    | ⟨1, _⟩ => by show q.val = if (256 : Nat) = 1 then 0 else q.val; rw [if_neg (by decide)])

/-- One block of the second kernel's output at row `r`, column `q`: the inner product of row `r` of the input block
    with row `q` of the weight block, plus the bias of column `q`. -/
theorem out1_3_apply (x0 : Vec Ideal S1024x4096 .bf16) (x1 : Vec Ideal S256x4096 .bf16) (x2 : Vec Ideal S1x256 .f32)
    (r : Fin 1024) (q : Fin 256) :
    out1_3 (F := Ideal) x0 x1 x2 (ix2 r q)
      = (∑ k : Fin 4096, x0 (ix2 r k) * x1 (ix2 q k)) + x2 (ix2 (0 : Fin 1) q) := by
  have hz : (![0, 0] : Fin S1024x256.rank → Nat) = fun _ => 0 := funext fun d => by
    match d with | ⟨0, _⟩ => rfl | ⟨1, _⟩ => rfl
  have hz0 : (![0, 0] : Fin S1024x4096.rank → Nat) = fun _ => 0 := funext fun d => by
    match d with | ⟨0, _⟩ => rfl | ⟨1, _⟩ => rfl
  have hz1 : (![0, 0] : Fin S256x4096.rank → Nat) = fun _ => 0 := funext fun d => by
    match d with | ⟨0, _⟩ => rfl | ⟨1, _⟩ => rfl
  have hz2 : (![0, 0] : Fin S1x256.rank → Nat) = fun _ => 0 := funext fun d => by
    match d with | ⟨0, _⟩ => rfl | ⟨1, _⟩ => rfl
  unfold out1_3
  rw [View.canon_unit_zero hz, View.ld_unit_zero (S := S1024x4096) hz0, View.ld_unit_zero (S := S256x4096) hz1,
    View.ld_unit_zero (S := S1x256) hz2]
  unfold k1_pay1
  rw [addf_apply, shapeCast_self, shapeCast_self, shapeCast_self]
  exact congrArg₂ (· + ·) (matmul_entry x0 x1 r q) (bias_entry x2 r q)

/-- Where the four windows' blocks sit at point `t` of the 8 × 43 grid: the input's block row and the result's block
    row are `t / 43`; the weights' block row, the bias's block column and the result's block column are `t % 43`. -/
private theorem block_indices : ∀ t : Fin cfg1.N,
    win1_0.index t (0 : Fin 2) = t.val / 43 ∧ win1_0.index t (1 : Fin 2) = 0
    ∧ win1_1.index t (0 : Fin 2) = t.val % 43 ∧ win1_1.index t (1 : Fin 2) = 0
    ∧ win1_2.index t (0 : Fin 2) = 0 ∧ win1_2.index t (1 : Fin 2) = t.val % 43
    ∧ win1_3.index t (0 : Fin 2) = t.val / 43 ∧ win1_3.index t (1 : Fin 2) = t.val % 43 :=
  (by decide +kernel : ∀ t : Fin grid1.N, _)

/-- The input's block at point `t` is rows `1024 (t / 43) …` of the input matrix. -/
private theorem input_block (c : Dev nD) (t : Fin cfg1.N) (r : Fin 1024) (k : Fin 4096) (u : Fin 8192)
    (hu : u.val = t.val / 43 * 1024 + r.val) :
    (iblk1 V c 0 t : Vec Ideal S1024x4096 .bf16) (ix2 r k) = inputA V c (ix2 u k) := by
  obtain ⟨e0, e1, -⟩ := block_indices t
  unfold iblk1
  rw [View.read_apply]
  show V c main_v13 _ = V c main_v13 _
  congr 1
  funext a
  apply Fin.ext
  match a with
  | ⟨0, _⟩ => show win1_0.index t (0 : Fin 2) * 1024 + 1 * r.val = u.val; rw [e0, hu]; omega
  | ⟨1, _⟩ => show win1_0.index t (1 : Fin 2) * 4096 + 1 * k.val = k.val; rw [e1]; omega

/-- The weights' block at point `t` is rows `256 (t % 43) …` of the weight matrix. -/
private theorem weight_block (c : Dev nD) (t : Fin cfg1.N) (q : Fin 256) (k : Fin 4096) (v : Fin 11008)
    (hv : v.val = t.val % 43 * 256 + q.val) :
    (iblk1 V c 1 t : Vec Ideal S256x4096 .bf16) (ix2 q k) = weightA V c (ix2 v k) := by
  obtain ⟨-, -, e2, e3, -⟩ := block_indices t
  unfold iblk1
  rw [View.read_apply]
  show V c main_v12 _ = V c main_v12 _
  congr 1
  funext a
  apply Fin.ext
  match a with
  | ⟨0, _⟩ => show win1_1.index t (0 : Fin 2) * 256 + 1 * q.val = v.val; rw [e2, hv]; omega
  | ⟨1, _⟩ => show win1_1.index t (1 : Fin 2) * 4096 + 1 * k.val = k.val; rw [e3]; omega

/-- The bias's block at point `t` is columns `256 (t % 43) …` of the bias row. -/
private theorem bias_block (c : Dev nD) (t : Fin cfg1.N) (q : Fin 256) (v : Fin 11008)
    (hv : v.val = t.val % 43 * 256 + q.val) :
    (iblk1 V c 2 t : Vec Ideal S1x256 .f32) (ix2 (0 : Fin 1) q) = biasA V c (ix2 (0 : Fin 1) v) := by
  obtain ⟨-, -, -, -, e4, e5, -⟩ := block_indices t
  unfold iblk1
  rw [View.read_apply]
  show V c main_v3 _ = V c main_v3 _
  congr 1
  funext a
  apply Fin.ext
  match a with
  | ⟨0, _⟩ => show win1_2.index t (0 : Fin 2) * 1 + 1 * 0 = 0; rw [e4]
  | ⟨1, _⟩ => show win1_2.index t (1 : Fin 2) * 256 + 1 * q.val = v.val; rw [e5, hv]; omega

/-- A block of the result whose three input blocks are the rows from `1024 i₀` of the input, the rows from `256 j₀` of
    the weights and the columns from `256 j₀` of the bias holds, at row `r` and column `q`, entry
    `(1024 i₀ + r, 256 j₀ + q)` of the product plus bias. -/
private theorem block_entry (A : FVec Ideal S8192x4096 .bf16) (W : FVec Ideal S11008x4096 .bf16) (b : FVec Ideal S1x11008 .f32)
    (x0 : Vec Ideal S1024x4096 .bf16) (x1 : Vec Ideal S256x4096 .bf16) (x2 : Vec Ideal S1x256 .f32) (i₀ j₀ : ℕ)
    (h0 : ∀ (r : Fin 1024) (k : Fin 4096) (u : Fin 8192), u.val = i₀ * 1024 + r.val → x0 (ix2 r k) = A (ix2 u k))
    (h1 : ∀ (q : Fin 256) (k : Fin 4096) (v : Fin 11008), v.val = j₀ * 256 + q.val → x1 (ix2 q k) = W (ix2 v k))
    (h2 : ∀ (q : Fin 256) (v : Fin 11008), v.val = j₀ * 256 + q.val → x2 (ix2 (0 : Fin 1) q) = b (ix2 (0 : Fin 1) v))
    (r : Fin 1024) (q : Fin 256) (u : Fin 8192) (v : Fin 11008) (hu : u.val = i₀ * 1024 + r.val) (hv : v.val = j₀ * 256 + q.val) :
    out1_3 (F := Ideal) x0 x1 x2 (ix2 r q) = (∑ k : Fin 4096, A (ix2 u k) * W (ix2 v k)) + b (ix2 (0 : Fin 1) v) := by
  rw [out1_3_apply, h2 q v hv]
  congr 1
  exact Finset.sum_congr rfl fun k _ => by rw [h0 r k u hu, h1 q k v hv]

/-- The result matrix: entry `(i, j)` is the inner product of row `i` of the input with row `j` of the weights, plus
    the bias of column `j`. -/
private abbrev product (c : Dev nD) : S8192x11008.Idx → EReal := fun j =>
  (∑ k : Fin 4096, inputA V c (ix2 (j 0) k) * weightA V c (ix2 (j 1) k)) + biasA V c (ix2 (0 : Fin 1) (j 1))

/-- What point `t` writes back is block `t` of the result matrix. -/
private theorem flushed_eq (c : Dev nD) (t : Fin cfg1.N) :
    (dat1 (F := Ideal) V c).flushed 3 t = ((cfg1.win 3).blk t).view.read (Elt Ideal) (product V c) := by
  show (cfg1.win 3).cut (grid1.coords t) ((dat1 (F := Ideal) V c).after 3 t) = _
  rw [after1_3]
  obtain ⟨-, -, -, -, -, -, e6, e7⟩ := block_indices t
  funext y
  show out1_3 (F := Ideal) (iblk1 V c 0 t) (iblk1 V c 1 t) (iblk1 V c 2 t) y = product V c (((cfg1.win 3).blk t).view.emb y)
  have hy : y = ix2 (y 0) (y 1) := @eq_ix2 1024 256 y
  have hu : ((((cfg1.win 3).blk t).view.emb y) 0).val = t.val / 43 * 1024 + (y 0).val := by
    show win1_3.index t (0 : Fin 2) * 1024 + 1 * (y 0).val = _
    rw [e6]; omega
  have hv : ((((cfg1.win 3).blk t).view.emb y) 1).val = t.val % 43 * 256 + (y 1).val := by
    show win1_3.index t (1 : Fin 2) * 256 + 1 * (y 1).val = _
    rw [e7]; omega
  refine (congrArg (out1_3 (F := Ideal) (iblk1 V c 0 t) (iblk1 V c 1 t) (iblk1 V c 2 t)) hy).trans ?_
  exact block_entry (inputA V c) (weightA V c) (biasA V c) (iblk1 V c 0 t) (iblk1 V c 1 t) (iblk1 V c 2 t)
    (t.val / 43) (t.val % 43)
    (fun r k u h => input_block V c t r k u h) (fun q k v h => weight_block V c t q k v h)
    (fun q v h => bias_block V c t q v h)
    (y 0) (y 1) ((((cfg1.win 3).blk t).view.emb y) 0) ((((cfg1.win 3).blk t).view.emb y) 1) hu hv

/-- An entry of the result matrix lies in point `t`'s block exactly when each coordinate lies in the block's range. -/
private theorem mem_block (t : Fin cfg1.N) (i : S8192x11008.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v14).slice (win1_3.rect t)).set ↔ _
  rw [View.set_slice_whole, Rect.mem_set_unit]
  exact Iff.rfl

/-- Every entry `(i, j)` of the result matrix is in the block of the point `43 (i / 1024) + j / 256`, which is written back. -/
private theorem covered (i : S8192x11008.Idx) :
    ∃ t : Fin cfg1.N, (cfg1.win 3).flush t = true ∧ i ∈ ((cfg1.win 3).blk t).view.set := by
  have hi0 : (i 0).val < 8192 := (i 0).isLt
  have hi1 : (i 1).val < 11008 := (i 1).isLt
  obtain ⟨t, ht⟩ : ∃ t : Fin cfg1.N, t.val = (i 0).val / 1024 * 43 + (i 1).val / 256 :=
    ⟨⟨(i 0).val / 1024 * 43 + (i 1).val / 256, by rw [show cfg1.N = 344 from N_1]; omega⟩, rfl⟩
  obtain ⟨-, -, -, -, -, -, e6, e7⟩ := block_indices t
  refine ⟨t, flush1_3 t, ?_⟩
  rw [mem_block]
  intro a
  match a with
  | ⟨0, _⟩ =>
    show win1_3.index t (0 : Fin 2) * 1024 ≤ (i 0).val ∧ (i 0).val < win1_3.index t (0 : Fin 2) * 1024 + 1024
    rw [e6, ht]; omega
  | ⟨1, _⟩ =>
    show win1_3.index t (1 : Fin 2) * 256 ≤ (i 1).val ∧ (i 1).val < win1_3.index t (1 : Fin 2) * 256 + 256
    rw [e7, ht]; omega

/-- The result matrix after the second kernel has run over its 8 × 43 blocks. -/
theorem arr1 (c : Dev nD) :
    (dat1 (F := Ideal) V c).arrAt 3 cfg1.N
      = fun j : S8192x11008.Idx =>
          (∑ k : Fin 4096, inputA V c (ix2 (j 0) k) * weightA V c (ix2 (j 1) k))
            + biasA V c (ix2 (0 : Fin 1) (j 1)) := by
  exact (dat1 (F := Ideal) V c).arrAt_eq_of_cover 3 (product V c) (fun t _ => flushed_eq V c t) covered

end Cert.KernelIdeal.Gen

end
-- ==== Proof.KernelValue.lean ====
/-
  The kernel program's result is `Y` of the launch arrays.

  The first kernel leaves in row o, column i the table entry the code selects times the sum over the sixty-four
  blocks k of the row's scale for block k times the spreading matrix's entry (k, i); that entry is one for the block
  the column lies in and zero for every other, so the sum is that block's scale, and the entry is the weight of
  `Spec.lean`. The second kernel then forms every inner product of an input row with a weight row and adds the bias.
-/
import proofs.«408254_j44564580663461_3_alg».proof.Proof.HostReads
import proofs.«408254_j44564580663461_3_alg».proof.Proof.Dequant
import proofs.«408254_j44564580663461_3_alg».proof.Proof.Project
import proofs.«408254_j44564580663461_3_alg».proof.Proof.RunValue

set_option maxRecDepth 16384

noncomputable section

open scoped BigOperators

namespace Cert.KernelIdeal.Gen

open Idealize.ShloMosaic Idealize.ShloMosaic.TcCoe Idealize.ShloMosaic.ValueIdx Idealize.SL.Sem Cert.Nf4

variable (m : (ℓ : Loc nD τ sig) → Buf (Elt Ideal) ℓ) (ρ : Dev nD → PrngReg)

/-- The sum over the blocks of a row's scales against a column of the spreading matrix is the scale of the block
    the column lies in: every other term has a zero factor. -/
theorem spread_sum (c : Dev nD) (o : Fin 11008) (i : Fin 4096) :
    ∑ k : Fin 64, scalesA (V1 m ρ) c (ix2 o k) * spreadA (V1 m ρ) c (ix2 k i)
      = absmaxM m c (ix1 (⟨o.val * 64 + i.val / 64, by omega⟩ : Fin 704512)) := by
  rw [Finset.sum_eq_single (⟨i.val / 64, by omega⟩ : Fin 64)]
  · rw [spread_read, if_pos rfl, mul_one, scales_read]
  · intro k _ hk
    rw [spread_read, if_neg (fun h => hk (Fin.ext h)), mul_zero]
  · intro h
    exact absurd (Finset.mem_univ _) h

/-- What the first kernel leaves at row `o`, column `i` is the weight. -/
theorem weight_entry (c : Dev nD) (o : Fin 11008) (i : Fin 4096) :
    (dat0 (F := Ideal) (V1 m ρ) c).arrAt 4 cfg0.N (ix2 o i)
      = wgt (codesM m c) (absmaxM m c) (tableM m c) o i := by
  rw [arr0 (V1 m ρ) c]
  show tableA (V1 m ρ) c (ix2 (0 : Fin 1) (nib (codesA (V1 m ρ) c (ix2 o i))))
      * ∑ k : Fin 64, scalesA (V1 m ρ) c (ix2 o k) * spreadA (V1 m ρ) c (ix2 k i) = _
  rw [spread_sum, codes_read, table_read]
  rfl

/-- The result buffer at the end of the run is `Y` of the launch arrays. -/
theorem result_value (c : Dev nD) :
    W4 m ρ c (Proc.devRef .tc main_v14)
      = Y (xM m c) (codesM m c) (absmaxM m c) (tableM m c) (biasM m c) := by
  refine (W4_arr m ρ c 3).trans ?_
  rw [arr1 (V3 m ρ) c]
  funext j
  obtain ⟨t, o, rfl⟩ : ∃ (t : Fin 8192) (o : Fin 11008), j = ix2 t o := ⟨j 0, j 1, eq_ix2 j⟩
  show (∑ k : Fin 4096, inputA (V3 m ρ) c (ix2 t k) * weightA (V3 m ρ) c (ix2 o k))
      + biasA (V3 m ρ) c (ix2 (0 : Fin 1) o) = yAt (xM m c) (codesM m c) (absmaxM m c) (tableM m c) (biasM m c) t o
  rw [input_read, weight_read, bias_read]
  unfold yAt
  refine congrArg (· + biasM m c (ix1 o)) (Finset.sum_congr rfl fun k _ => ?_)
  rw [weight_entry]

/-- Every weakly fair execution of the kernel program terminates with its result at `Y` of the launch arrays and
    the arguments unchanged. -/
theorem run_Y : θ_run defs (onTc (τ := τ) (main (F := Ideal))) ⟨m, fun _ => 0, ρ⟩ (fun r => ∀ c : Dev nD,
      r.2.mem ((c.tc : Thread nD τ).loc main_v14) = Y (xM m c) (codesM m c) (absmaxM m c) (tableM m c) (biasM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_value m ρ c), (h c).2⟩) (run_result m ρ)

end Cert.KernelIdeal.Gen

end
-- ==== Proof.Reference.lean ====
/-
  The reference, read index by index: with every code between −16 and 15 it computes the same weights and the
  same result.
-/
import proofs.«408254_j44564580663461_3_alg».proof.Proof.Spec
import proofs.«408254_j44564580663461_3_alg».proof.Proof.Gen.ReferenceIdeal.Read
import Idealize.ShloMosaic.Lib.StableHlo.Predicate

noncomputable section

open scoped BigOperators

namespace Cert.Nf4.Ref

open Idealize.ShloMosaic Idealize.ShloMosaic.ValueIdx Cert.ReferenceIdeal Cert.Nf4

/-- For a code between −16 and 15, counting a negative position from the end of the sixteen-entry table (adding
    sixteen) and then clamping into the table lands on the entry named by the code's low four bits: a code from 0
    to 15 is its own low four bits, and a code from −16 to −1 plus sixteen is again its low four bits, since
    sixteen does not touch them. There are thirty-two codes to look at, and each is computed. -/
private theorem wrap_clamp (c : BitVec 32) (h₁ : -16 ≤ c.toInt) (h₂ : c.toInt < 16) :
    min (Scalar.select (IntOp.cmpi .slt c 0#32) (IntOp.addi c 16#32) c).toInt.toNat 15 = (nib c).val := by
  have hc : c = BitVec.ofInt 32 c.toInt := (BitVec.ofInt_toInt).symm
  generalize c.toInt = k at hc h₁ h₂
  subst hc
  interval_cases k <;> decide

/-- The position the lookup is handed for code number `p` (row `p` of the one-column table of positions): the code
    itself, moved up by sixteen when it is negative. -/
private theorem pos_at (codes : IVec S45088768 32) (p : Fin 45088768) :
    Read.val_main_v5 (F := Ideal) codes (StableHlo.Predicate.ixP p)
      = Scalar.select (IntOp.cmpi .slt (codes (ix1 p)) 0#32) (IntOp.addi (codes (ix1 p)) 16#32) (codes (ix1 p)) := by
  have e : Read.idx_main_v5 (StableHlo.Predicate.ixP p) = ix1 p :=
    funext fun a => Fin.ext (by match a with | ⟨0, _⟩ => rfl)
  rw [Read.val_main_v5_apply, Read.val_main_v4_apply, Read.val_main_v1_apply, Read.val_main_v3_apply,
    Read.val_main_v0_apply, Read.val_main_v2_apply, Read.val_main_c_apply, Read.val_main_c_0_apply, e]

/-- The table entry looked up for code number `p` is the entry of that code's low four bits: the lookup reads the
    table at its position taken as a signed number and clamped into the table, and `wrap_clamp` says which entry
    that is. -/
private theorem entry_at (codes : IVec S45088768 32) (cb : FVec Ideal S16 .f32)
    (hr : ∀ n, -16 ≤ (codes n).toInt ∧ (codes n).toInt < 16) (p : Fin 45088768) :
    Read.val_main_v6 (F := Ideal) codes cb (Shape.Idx.ofFin p) = cb (ix1 (nib (codes (ix1 p)))) := by
  unfold Read.val_main_v6
  refine (StableHlo.Predicate.gather_take gather_S16_S45088768x1_S45088768_n_0_n_n_0_1_1 rfl rfl rfl rfl cb
    (Read.val_main_v5 (F := Ideal) codes) p (by decide)).trans ?_
  refine congrArg cb (funext fun a => Fin.ext ?_)
  match a with
  | ⟨0, _⟩ =>
    show min (Read.val_main_v5 (F := Ideal) codes (StableHlo.Predicate.ixP p)).toInt.toNat (16 - 1)
      = (nib (codes (ix1 p))).val
    rw [pos_at]
    exact wrap_clamp _ (hr _).1 (hr _).2

/-- The reference's weight in row `o`, column `i`. Entry (o, i) of the weight matrix is entry o·4096 + i of the
    flat list of scaled table entries; cut into rows of sixty-four that is row (o·4096 + i) / 64 = o·64 + i / 64,
    whose scale multiplies it, and column (o·4096 + i) mod 64, and row times sixty-four plus column is
    o·4096 + i again: the code number whose table entry is read. -/
private theorem weight_at (codes : IVec S45088768 32) (absmax : FVec Ideal S704512 .f32) (cb : FVec Ideal S16 .f32)
    (hr : ∀ n, -16 ≤ (codes n).toInt ∧ (codes n).toInt < 16) (o : Fin 11008) (i : Fin 4096) :
    Read.val_main_v11 (F := Ideal) codes absmax cb (ix2 o i) = wgt codes absmax cb o i := by
  have ho := o.isLt
  have hi := i.isLt
  have e₁ : Read.idx_main_v7 (Read.idx_main_v11 (ix2 o i))
      = Shape.Idx.ofFin (⟨o.val * 4096 + i.val, by omega⟩ : Fin 45088768) :=
    funext fun a => Fin.ext (by
      match a with
      | ⟨0, _⟩ =>
        show (o.val * 4096 + i.val) / 64 * 64 + (o.val * 4096 + i.val) % 64 = o.val * 4096 + i.val
        omega)
  have e₂ : Read.idx_main_v8 (Read.idx_main_v9 (Read.idx_main_v11 (ix2 o i)))
      = ix1 (⟨o.val * 64 + i.val / 64, by omega⟩ : Fin 704512) :=
    funext fun a => Fin.ext (by
      match a with
      | ⟨0, _⟩ =>
        show (o.val * 4096 + i.val) / 64 = o.val * 64 + i.val / 64
        omega)
  rw [Read.val_main_v11_apply, Read.val_main_v10_apply, Read.val_main_v7_apply, Read.val_main_v9_apply,
    Read.val_main_v8_apply, e₁, e₂, entry_at codes cb hr]
  rfl

/-- The reference's result is `Y` of its arguments when every code lies in the table's index range, negative
    positions counted from the end. -/
theorem ref_eq (x : FVec Ideal S8192x4096 .f32) (codes : IVec S45088768 32) (absmax : FVec Ideal S704512 .f32)
    (cb : FVec Ideal S16 .f32) (bias : FVec Ideal S11008 .f32)
    (hr : ∀ n, -16 ≤ (codes n).toInt ∧ (codes n).toInt < 16) :
    Cert.ReferenceIdeal.Read.val_main_v15 (F := Ideal) x codes absmax cb bias = Y x codes absmax cb bias := by
  -- entry (t, o): the contraction pairs row t of the input with row o of the weights, and the bias row is read at o
  funext j
  obtain ⟨t, o, rfl⟩ : ∃ (t : Fin 8192) (o : Fin 11008), j = ix2 t o := ⟨j 0, j 1, eq_ix2 j⟩
  have el : ∀ k : Fin 4096, Read.lidx_main_v12 (ix2 t o) k = ix2 t k := fun k =>
    funext fun a => Fin.ext (by match a with | ⟨0, _⟩ => rfl | ⟨1, _⟩ => rfl)
  have er : ∀ k : Fin 4096, Read.ridx_main_v12 (ix2 t o) k = ix2 o k := fun k =>
    funext fun a => Fin.ext (by match a with | ⟨0, _⟩ => rfl | ⟨1, _⟩ => rfl)
  have eb : Read.idx_main_v13 (Read.idx_main_v14 (ix2 t o)) = ix1 o :=
    funext fun a => Fin.ext (by match a with | ⟨0, _⟩ => rfl)
  rw [Read.val_main_v15_apply, Read.val_main_v12_apply, Read.val_main_v14_apply, Read.val_main_v13_apply, eb]
  show (∑ k : Fin 4096, x (Read.lidx_main_v12 (ix2 t o) k)
      * Read.val_main_v11 (F := Ideal) codes absmax cb (Read.ridx_main_v12 (ix2 t o) k)) + bias (ix1 o)
    = (∑ k : Fin 4096, x (ix2 t k) * wgt codes absmax cb o k) + bias (ix1 o)
  refine congrArg (· + bias (ix1 o)) (Finset.sum_congr rfl fun k _ => ?_)
  rw [el, er, weight_at codes absmax cb hr]

end Cert.Nf4.Ref

end
-- ==== Proof.Range.lean ====
/-
  What the precondition says about the codes: each lies between −16 and 15.
-/
import proofs.«408254_j44564580663461_3_alg».proof.Proof.Spec
import proofs.«408254_j44564580663461_3_alg».proof.Proof.Gen.Pre_finite_inputs
import Idealize.ShloMosaic.Lib.StableHlo.Predicate
import Idealize.ShloMosaic.Lib.ReduceAll

noncomputable section

namespace Cert.Nf4.Ref

open Idealize.ShloMosaic Idealize.ShloMosaic.ValueIdx Cert.Pre_finite_inputs

/-- A shape of rank zero has exactly one index. -/
private instance subsingleton_scalar_idx : Subsingleton S_.Idx := ⟨fun a b => funext fun d => d.elim0⟩

/-- The word 4294967280 read as a signed 32-bit integer is −16. -/
private theorem toInt_neg16 : (4294967280#32 : BitVec 32).toInt = -16 := by decide

/-- The word 16 read as a signed 32-bit integer is 16. -/
private theorem toInt_16 : (16#32 : BitVec 32).toInt = 16 := by decide

/-- Under the precondition every code lies in the table's index range. -/
theorem range_of_pre [Cert.Pre_finite_inputs.Facts] (x : FVec Ideal S8192x4096 .f32) (codes : IVec S45088768 32)
    (absmax : FVec Ideal S704512 .f32) (cb : FVec Ideal S16 .f32) (bias : FVec Ideal S11008 .f32)
    (h : Cert.Pre_finite_inputs.fn (F := Ideal) x codes absmax cb bias = fun _ => 1#1) :
    ∀ n, -16 ≤ (codes n).toInt ∧ (codes n).toInt < 16 := by
  -- The precondition is a scalar; read it at its one index and open the printed chain of operations.
  have h0 := congrFun h ValueIdx.ix0
  unfold Cert.Pre_finite_inputs.fn at h0
  dsimp only at h0
  unfold Cert.Pre_finite_inputs.fn_part1 at h0
  dsimp only at h0
  -- It is a conjunction of one-bit words, and the two tests on the codes are its last two conjuncts:
  -- the outermost is "every code is below 16", the next "every code is at least −16".
  obtain ⟨h1, hlt⟩ := IntOp.andi_eq_one.1 (show IntOp.andi _ _ = 1#1 from h0)
  obtain ⟨_, hge⟩ := IntOp.andi_eq_one.1 (show IntOp.andi _ _ = 1#1 from h1)
  intro n
  -- A conjunction over all positions that came out 1 had a 1 at position n.
  have hgen := Host.reduce_andi_all _ _ _ _ _ hge n
  have hltn := Host.reduce_andi_all _ _ _ _ _ hlt n
  -- At position n each test compares the code with the broadcast constant, as signed integers.
  have hge' : (4294967280#32 : BitVec 32).toInt ≤ (codes n).toInt :=
    IntOp.cmpi_sge.1 (show IntOp.cmpi .sge (codes n) (4294967280#32) = 1#1 from hgen)
  have hlt' : (codes n).toInt < (16#32 : BitVec 32).toInt :=
    IntOp.cmpi_slt.1 (show IntOp.cmpi .slt (codes n) (16#32) = 1#1 from hltn)
  rw [toInt_neg16] at hge'
  rw [toInt_16] at hlt'
  exact ⟨hge', hlt'⟩

end Cert.Nf4.Ref

end
-- ==== Proof.lean ====
/-
  Both programs compute one function of their arguments.

  A four-bit code selects one of sixteen table entries; the kernel reads the code's low four bits through a binary
  tree of selects, the reference indexes the table with the code, counting a negative code from the table's end.
  On codes between −16 and 15 — the table's index range, which the precondition states — the two positions agree.
  The selected entry is scaled by its block's scale (the kernel spreads the scales over the columns by a product with
  a zero-one matrix, the reference by a reshape and a broadcast), and the result is the input times the transposed
  weights plus the bias, the same sum on both sides. On the extended reals a change of float format is the identity,
  and the kernel's products into a zero accumulator are the reference's plain sums, so no finiteness is used.

  The three frames: the two kernel programs run by their generated frame certificates, the reference by its generated
  run. The idealized kernel is the kernel's own text read at the extended reals: nothing to preserve.
-/
import proofs.«408254_j44564580663461_3_alg».proof.Defs
import proofs.«408254_j44564580663461_3_alg».proof.Proof.Gen.Kernel
import proofs.«408254_j44564580663461_3_alg».proof.Proof.Gen.Kernel.Frame
import proofs.«408254_j44564580663461_3_alg».proof.Proof.Gen.KernelIdeal
import proofs.«408254_j44564580663461_3_alg».proof.Proof.Gen.KernelIdeal.Frame
import proofs.«408254_j44564580663461_3_alg».proof.Proof.Gen.ReferenceIdeal
import proofs.«408254_j44564580663461_3_alg».proof.Proof.Gen.Pre_finite_inputs
import proofs.«408254_j44564580663461_3_alg».proof.Proof.Gen.ReferenceIdeal.Run
import proofs.«408254_j44564580663461_3_alg».proof.Proof.Gen.ReferenceIdeal.Read
import proofs.«408254_j44564580663461_3_alg».proof.Proof.KernelValue
import proofs.«408254_j44564580663461_3_alg».proof.Proof.Reference
import proofs.«408254_j44564580663461_3_alg».proof.Proof.Range
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end with their result at
    `Y` of the arguments: the kernel program by its run, the reference by its run read index by index, with the
    codes' range taken from the precondition. -/
theorem algebraic : Cert.algebraic_KernelIdeal_ReferenceIdeal := by
  intro m ρ m' ρ' hpre hagree
  refine ⟨fun c => Cert.Nf4.Y (Cert.KernelIdeal.Gen.xM m c) (Cert.KernelIdeal.Gen.codesM m c)
      (Cert.KernelIdeal.Gen.absmaxM m c) (Cert.KernelIdeal.Gen.tableM m c) (Cert.KernelIdeal.Gen.biasM m c),
    Cert.KernelIdeal.Gen.run_Y m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2.1, (hagree c).2.2.1, (hagree c).2.2.2.1,
    (hagree c).2.2.2.2]
  exact Cert.Nf4.Ref.ref_eq _ _ _ _ _ (Cert.Nf4.Ref.range_of_pre _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
